-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8 : Shape := ⟨2, ![256, 8]⟩
abbrev S5636096 : Shape := ⟨1, ![5636096]⟩
abbrev S11008 : Shape := ⟨1, ![11008]⟩
abbrev S4096 : Shape := ⟨1, ![4096]⟩
abbrev S_ : Shape := ⟨0, ![]⟩

class Facts : Prop where
  bcast_S_S256x8 : S_.BroadcastsInDim S256x8 (![] : Fin 0 → Fin S256x8.rank)
  reducesTo_S256x8_S_d0_1 : S256x8.ReducesTo [0, 1] S_
  h_S_ : 0 < S_.numel
  bcast_S_S11008 : S_.BroadcastsInDim S11008 (![] : Fin 0 → Fin S11008.rank)
  reducesTo_S11008_S_d0 : S11008.ReducesTo [0] S_
  bcast_S_S4096 : S_.BroadcastsInDim S4096 (![] : Fin 0 → Fin S4096.rank)
  reducesTo_S4096_S_d0 : S4096.ReducesTo [0] S_
  bcast_S_S5636096 : S_.BroadcastsInDim S5636096 (![] : Fin 0 → Fin S5636096.rank)
  reducesTo_S5636096_S_d0 : S5636096.ReducesTo [0] S_

variable [Facts]

def fn_part1 {F : FTy → Type} [FloatOps F] (main_arg1 : IVec S5636096 32) (main_v13 : IVec S_ 1) (main_v15 : IVec S5636096 1) (main_c_5 : IVec S_ 32) : IVec S_ 1 :=
  let main_v16 : IVec S5636096 32 := broadcastInDim S5636096 ![] bcast_S_S5636096 main_c_5
  let main_v17 : IVec S5636096 1 := cmpi .slt main_arg1 main_v16
  let main_v18 : IVec S5636096 1 := andi main_v15 main_v17
  let main_c_6 : IVec S_ 1 := constantI S_ 1 1#1
  let main_v19 : IVec S_ 1 := (fun x v => Host.reduce IntOp.andi x v reducesTo_S5636096_S_d0 h_S_) main_v18 main_c_6
  let main_v20 : IVec S_ 1 := andi main_v13 main_v19
  main_v20

def fn {F : FTy → Type} [FloatOps F] (main_arg0 : FVec F S256x8 .f32) (main_arg1 : IVec S5636096 32) (main_arg2 : FVec F S11008 .f32) (main_arg3 : FVec F S4096 .f32) : IVec S_ 1 :=
  let main_v0 : FVec F S256x8 .f32 := Host.absf main_arg0
  let main_cst : FVec F S_ .f32 := constant S_ .f32 0x7F800000#32
  let main_v1 : FVec F S256x8 .f32 := broadcastInDim S256x8 ![] bcast_S_S256x8 main_cst
  let main_v2 : IVec S256x8 1 := cmpf .olt main_v0 main_v1
  let main_c : IVec S_ 1 := constantI S_ 1 1#1
  let main_v3 : IVec S_ 1 := (fun x v => Host.reduce IntOp.andi x v reducesTo_S256x8_S_d0_1 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_c_4 : IVec S_ 32 := constantI S_ 32 0#32
  let main_v14 : IVec S5636096 32 := broadcastInDim S5636096 ![] bcast_S_S5636096 main_c_4
  let main_v15 : IVec S5636096 1 := cmpi .sge main_arg1 main_v14
  let main_c_5 : IVec S_ 32 := constantI S_ 32 256#32
  fn_part1 (F := F) main_arg1 main_v13 main_v15 main_c_5
-- ==== Kernel.lean ====
abbrev S256x8 : Shape := ⟨2, ![256, 8]⟩
abbrev S5636096 : Shape := ⟨1, ![5636096]⟩
abbrev S11008 : Shape := ⟨1, ![11008]⟩
abbrev S4096 : Shape := ⟨1, ![4096]⟩
abbrev S4096x1376 : Shape := ⟨2, ![4096, 1376]⟩
abbrev S1376x8 : Shape := ⟨2, ![1376, 8]⟩
abbrev S4096x1 : Shape := ⟨2, ![4096, 1]⟩
abbrev S4096x11008 : Shape := ⟨2, ![4096, 11008]⟩
abbrev S64x1376 : Shape := ⟨2, ![64, 1376]⟩
abbrev S64x1 : Shape := ⟨2, ![64, 1]⟩
abbrev S64x11008 : Shape := ⟨2, ![64, 11008]⟩
abbrev S64x1x1 : Shape := ⟨3, ![64, 1, 1]⟩
abbrev S64x128x256 : Shape := ⟨3, ![64, 128, 256]⟩
abbrev S64x128 : Shape := ⟨2, ![64, 128]⟩
abbrev S64x128x1 : Shape := ⟨3, ![64, 128, 1]⟩
abbrev S8192x256 : Shape := ⟨2, ![8192, 256]⟩
abbrev S8192x8 : Shape := ⟨2, ![8192, 8]⟩
abbrev S64x128x8 : Shape := ⟨3, ![64, 128, 8]⟩
abbrev S128x8 : Shape := ⟨2, ![128, 8]⟩
abbrev S1x128x8 : Shape := ⟨3, ![1, 128, 8]⟩
abbrev S64x1024 : Shape := ⟨2, ![64, 1024]⟩
abbrev S64x96 : Shape := ⟨2, ![64, 96]⟩
abbrev S64x96x256 : Shape := ⟨3, ![64, 96, 256]⟩
abbrev S64x96x1 : Shape := ⟨3, ![64, 96, 1]⟩
abbrev S6144x256 : Shape := ⟨2, ![6144, 256]⟩
abbrev S6144x8 : Shape := ⟨2, ![6144, 8]⟩
abbrev S64x96x8 : Shape := ⟨3, ![64, 96, 8]⟩
abbrev S96x8 : Shape := ⟨2, ![96, 8]⟩
abbrev S1x96x8 : Shape := ⟨3, ![1, 96, 8]⟩
abbrev S64x768 : Shape := ⟨2, ![64, 768]⟩

abbrev nBuf : Space → Nat
  | .hbm => 8
  | .vmem => 8
  | .smem => 0
  | _ => 0

abbrev bufTy : (tb : Table) → Fin (tcTables nBuf tb) → BufTy
  | .hbm, ⟨0, _⟩ => ⟨S256x8, .f32⟩
  | .hbm, ⟨1, _⟩ => ⟨S5636096, .i32⟩
  | .hbm, ⟨2, _⟩ => ⟨S11008, .f32⟩
  | .hbm, ⟨3, _⟩ => ⟨S4096, .f32⟩
  | .hbm, ⟨4, _⟩ => ⟨S4096x1376, .i32⟩
  | .hbm, ⟨5, _⟩ => ⟨S1376x8, .f32⟩
  | .hbm, ⟨6, _⟩ => ⟨S4096x1, .f32⟩
  | .hbm, ⟨7, _⟩ => ⟨S4096x11008, .f32⟩
  | .local _ .vmem, ⟨0, _⟩ => ⟨S64x1376, .i32⟩
  | .local _ .vmem, ⟨1, _⟩ => ⟨S64x1376, .i32⟩
  | .local _ .vmem, ⟨2, _⟩ => ⟨S256x8, .f32⟩
  | .local _ .vmem, ⟨3, _⟩ => ⟨S1376x8, .f32⟩
  | .local _ .vmem, ⟨4, _⟩ => ⟨S64x1, .f32⟩
  | .local _ .vmem, ⟨5, _⟩ => ⟨S64x1, .f32⟩
  | .local _ .vmem, ⟨6, _⟩ => ⟨S64x11008, .f32⟩
  | .local _ .vmem, ⟨7, _⟩ => ⟨S64x11008, .f32⟩
  | _, _ => ⟨S256x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1376 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1376x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x11008 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S5636096_S4096x1376 : S5636096.ShapeCasts S4096x1376
  shapeCasts_S11008_S1376x8 : S11008.ShapeCasts S1376x8
  shapeCasts_S4096_S4096x1 : S4096.ShapeCasts S4096x1
  inb_S256x8_S256x8_0_0 : ∀ a, (![0, 0] : Fin 2 → Nat) a + S256x8.size a ≤ S256x8.size a
  h_S256x8 : 0 < S256x8.numel
  bitsLt_bf16_f32 : FTy.bits .bf16 < FTy.bits .f32
  inb_S64x1_S64x1_0_0 : ∀ a, (![0, 0] : Fin 2 → Nat) a + S64x1.size a ≤ S64x1.size a
  h_S64x1 : 0 < S64x1.numel
  shapeCasts_S64x1_S64x1 : S64x1.ShapeCasts S64x1
  shapeCasts_S64x1_S64x1x1 : S64x1.ShapeCasts S64x1x1
  iota_S64x128x256_d2_w32 : S64x128x256.Iotas .tc 32 [2]
  inb_S64x1376_S64x128_0_0 : ∀ a, (![0, 0] : Fin 2 → Nat) a + S64x128.size a ≤ S64x1376.size a
  h_S64x128 : 0 < S64x128.numel
  shapeCasts_S64x128_S64x128 : S64x128.ShapeCasts S64x128
  shapeCasts_S64x128_S64x128x1 : S64x128.ShapeCasts S64x128x1
  broadcasts_S64x128x1_S64x128x256 : S64x128x1.Broadcasts S64x128x256
  natLt_1_32 : 1 < 32
  shapeCasts_S64x128x256_S8192x256 : S64x128x256.ShapeCasts S8192x256
  shapeCasts_S8192x8_S64x128x8 : S8192x8.ShapeCasts S64x128x8
  inb_S1376x8_S128x8_0_0 : ∀ a, (![0, 0] : Fin 2 → Nat) a + S128x8.size a ≤ S1376x8.size a
  h_S128x8 : 0 < S128x8.numel
  shapeCasts_S128x8_S128x8 : S128x8.ShapeCasts S128x8
  shapeCasts_S128x8_S1x128x8 : S128x8.ShapeCasts S1x128x8
  broadcasts_S1x128x8_S64x128x8 : S1x128x8.Broadcasts S64x128x8
  broadcasts_S64x1x1_S64x128x8 : S64x1x1.Broadcasts S64x128x8
  shapeCasts_S64x128x8_S64x1024 : S64x128x8.ShapeCasts S64x1024
  inb_S64x11008_S64x1024_0_0 : ∀ a, (![0, 0] : Fin 2 → Nat) a + S64x1024.size a ≤ S64x11008.size a
  h_S64x1024 : 0 < S64x1024.numel
  inb_S64x1376_S64x128_0_128 : ∀ a, (![0, 128] : Fin 2 → Nat) a + S64x128.size a ≤ S64x1376.size a
  inb_S1376x8_S128x8_128_0 : ∀ a, (![128, 0] : Fin 2 → Nat) a + S128x8.size a ≤ S1376x8.size a
  inb_S64x11008_S64x1024_0_1024 : ∀ a, (![0, 1024] : Fin 2 → Nat) a + S64x1024.size a ≤ S64x11008.size a
  inb_S64x1376_S64x128_0_256 : ∀ a, (![0, 256] : Fin 2 → Nat) a + S64x128.size a ≤ S64x1376.size a
  inb_S1376x8_S128x8_256_0 : ∀ a, (![256, 0] : Fin 2 → Nat) a + S128x8.size a ≤ S1376x8.size a
  inb_S64x11008_S64x1024_0_2048 : ∀ a, (![0, 2048] : Fin 2 → Nat) a + S64x1024.size a ≤ S64x11008.size a
  inb_S64x1376_S64x128_0_384 : ∀ a, (![0, 384] : Fin 2 → Nat) a + S64x128.size a ≤ S64x1376.size a
  inb_S1376x8_S128x8_384_0 : ∀ a, (![384, 0] : Fin 2 → Nat) a + S128x8.size a ≤ S1376x8.size a
  inb_S64x11008_S64x1024_0_3072 : ∀ a, (![0, 3072] : Fin 2 → Nat) a + S64x1024.size a ≤ S64x11008.size a
  inb_S64x1376_S64x128_0_512 : ∀ a, (![0, 512] : Fin 2 → Nat) a + S64x128.size a ≤ S64x1376.size a
  inb_S1376x8_S128x8_512_0 : ∀ a, (![512, 0] : Fin 2 → Nat) a + S128x8.size a ≤ S1376x8.size a
  inb_S64x11008_S64x1024_0_4096 : ∀ a, (![0, 4096] : Fin 2 → Nat) a + S64x1024.size a ≤ S64x11008.size a
  inb_S64x1376_S64x128_0_640 : ∀ a, (![0, 640] : Fin 2 → Nat) a + S64x128.size a ≤ S64x1376.size a
  inb_S1376x8_S128x8_640_0 : ∀ a, (![640, 0] : Fin 2 → Nat) a + S128x8.size a ≤ S1376x8.size a
  inb_S64x11008_S64x1024_0_5120 : ∀ a, (![0, 5120] : Fin 2 → Nat) a + S64x1024.size a ≤ S64x11008.size a
  inb_S64x1376_S64x128_0_768 : ∀ a, (![0, 768] : Fin 2 → Nat) a + S64x128.size a ≤ S64x1376.size a
  inb_S1376x8_S128x8_768_0 : ∀ a, (![768, 0] : Fin 2 → Nat) a + S128x8.size a ≤ S1376x8.size a
  inb_S64x11008_S64x1024_0_6144 : ∀ a, (![0, 6144] : Fin 2 → Nat) a + S64x1024.size a ≤ S64x11008.size a
  inb_S64x1376_S64x128_0_896 : ∀ a, (![0, 896] : Fin 2 → Nat) a + S64x128.size a ≤ S64x1376.size a
  inb_S1376x8_S128x8_896_0 : ∀ a, (![896, 0] : Fin 2 → Nat) a + S128x8.size a ≤ S1376x8.size a
  inb_S64x11008_S64x1024_0_7168 : ∀ a, (![0, 7168] : Fin 2 → Nat) a + S64x1024.size a ≤ S64x11008.size a
  inb_S64x1376_S64x128_0_1024 : ∀ a, (![0, 1024] : Fin 2 → Nat) a + S64x128.size a ≤ S64x1376.size a
  inb_S1376x8_S128x8_1024_0 : ∀ a, (![1024, 0] : Fin 2 → Nat) a + S128x8.size a ≤ S1376x8.size a
  inb_S64x11008_S64x1024_0_8192 : ∀ a, (![0, 8192] : Fin 2 → Nat) a + S64x1024.size a ≤ S64x11008.size a
  inb_S64x1376_S64x128_0_1152 : ∀ a, (![0, 1152] : Fin 2 → Nat) a + S64x128.size a ≤ S64x1376.size a
  inb_S1376x8_S128x8_1152_0 : ∀ a, (![1152, 0] : Fin 2 → Nat) a + S128x8.size a ≤ S1376x8.size a
  inb_S64x11008_S64x1024_0_9216 : ∀ a, (![0, 9216] : Fin 2 → Nat) a + S64x1024.size a ≤ S64x11008.size a
  inb_S64x1376_S64x96_0_1280 : ∀ a, (![0, 1280] : Fin 2 → Nat) a + S64x96.size a ≤ S64x1376.size a
  h_S64x96 : 0 < S64x96.numel
  shapeCasts_S64x96_S64x96 : S64x96.ShapeCasts S64x96
  slices_S64x128x256_o0_0_0_S64x96x256 : S64x128x256.Slices ![0, 0, 0] S64x96x256
  shapeCasts_S64x96_S64x96x1 : S64x96.ShapeCasts S64x96x1
  broadcasts_S64x96x1_S64x96x256 : S64x96x1.Broadcasts S64x96x256
  shapeCasts_S64x96x256_S6144x256 : S64x96x256.ShapeCasts S6144x256
  shapeCasts_S6144x8_S64x96x8 : S6144x8.ShapeCasts S64x96x8
  inb_S1376x8_S96x8_1280_0 : ∀ a, (![1280, 0] : Fin 2 → Nat) a + S96x8.size a ≤ S1376x8.size a
  h_S96x8 : 0 < S96x8.numel
  shapeCasts_S96x8_S96x8 : S96x8.ShapeCasts S96x8
  shapeCasts_S96x8_S1x96x8 : S96x8.ShapeCasts S1x96x8
  broadcasts_S1x96x8_S64x96x8 : S1x96x8.Broadcasts S64x96x8
  broadcasts_S64x1x1_S64x96x8 : S64x1x1.Broadcasts S64x96x8
  shapeCasts_S64x96x8_S64x768 : S64x96x8.ShapeCasts S64x768
  inb_S64x11008_S64x768_0_10240 : ∀ a, (![0, 10240] : Fin 2 → Nat) a + S64x768.size a ≤ S64x11008.size a
  h_S64x768 : 0 < S64x768.numel
  dot_S8192x256_S256x8_S8192x8_1_0_0_1_n_n_wf : DotDims.WF S8192x256 S256x8 S8192x8 [1] [0] [0] [1] [] []
  dot_S6144x256_S256x8_S6144x8_1_0_0_1_n_n_wf : DotDims.WF S6144x256 S256x8 S6144x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1376.size a ≤ S4096x1376.size a
  hwx0_0 : ∀ i : grid0.Coords, EltTy.bits .i32 = 32 ∨ (Rect.block (s := S4096x1376) S64x1376.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x8.size a ≤ S256x8.size a
  hwx0_1 : ∀ i : grid0.Coords, EltTy.bits .f32 = 32 ∨ (Rect.block (s := S256x8) S256x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1376x8.size a ≤ S1376x8.size a
  hwx0_2 : ∀ i : grid0.Coords, EltTy.bits .f32 = 32 ∨ (Rect.block (s := S1376x8) S1376x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S4096x1.size a
  hwx0_3 : ∀ i : grid0.Coords, EltTy.bits .f32 = 32 ∨ (Rect.block (s := S4096x1) S64x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x11008.size a ≤ S4096x11008.size a
  hwx0_4 : ∀ i : grid0.Coords, EltTy.bits .f32 = 32 ∨ (Rect.block (s := S4096x11008) S64x11008.size (cc0_transform_4 i) (hinb0_4 i)).WholeWords (EltTy.packing .f32)

variable [Facts₀]

def dot_S8192x256_S256x8_S8192x8_1_0_0_1_n_n : DotDims S8192x256 S256x8 S8192x8 where
  lhsContracting := [1]
  rhsContracting := [0]
  lhsNonContracting := [0]
  rhsNonContracting := [1]
  lhsBatch := []
  rhsBatch := []
  wf := dot_S8192x256_S256x8_S8192x8_1_0_0_1_n_n_wf
def dot_S6144x256_S256x8_S6144x8_1_0_0_1_n_n : DotDims S6144x256 S256x8 S6144x8 where
  lhsContracting := [1]
  rhsContracting := [0]
  lhsNonContracting := [0]
  rhsNonContracting := [1]
  lhsBatch := []
  rhsBatch := []
  wf := dot_S6144x256_S256x8_S6144x8_1_0_0_1_n_n_wf

abbrev win0_0 : Pipeline.Window sig grid0 :=
  Pipeline.Window.ofSpec (Memref.whole main_v0) S64x1376.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1376x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S64x11008.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x8 : Shape := ⟨2, ![256, 8]⟩
abbrev S5636096 : Shape := ⟨1, ![5636096]⟩
abbrev S11008 : Shape := ⟨1, ![11008]⟩
abbrev S4096 : Shape := ⟨1, ![4096]⟩
abbrev S_ : Shape := ⟨0, ![]⟩
abbrev S5636096x1 : Shape := ⟨2, ![5636096, 1]⟩
abbrev S5636096x8 : Shape := ⟨2, ![5636096, 8]⟩
abbrev S4096x11008 : Shape := ⟨2, ![4096, 11008]⟩
abbrev S1x11008 : Shape := ⟨2, ![1, 11008]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S256x8, .f32⟩
  | .hbm, ⟨1, _⟩ => ⟨S5636096, .i32⟩
  | .hbm, ⟨2, _⟩ => ⟨S11008, .f32⟩
  | .hbm, ⟨3, _⟩ => ⟨S4096, .f32⟩
  | .hbm, ⟨4, _⟩ => ⟨S_, .i32⟩
  | .hbm, ⟨5, _⟩ => ⟨S5636096, .i32⟩
  | .hbm, ⟨6, _⟩ => ⟨S5636096, .i1⟩
  | .hbm, ⟨7, _⟩ => ⟨S_, .i32⟩
  | .hbm, ⟨8, _⟩ => ⟨S5636096, .i32⟩
  | .hbm, ⟨9, _⟩ => ⟨S5636096, .i32⟩
  | .hbm, ⟨10, _⟩ => ⟨S5636096, .i32⟩
  | .hbm, ⟨11, _⟩ => ⟨S5636096x1, .i32⟩
  | .hbm, ⟨12, _⟩ => ⟨S5636096x8, .f32⟩
  | .hbm, ⟨13, _⟩ => ⟨S4096x11008, .f32⟩
  | .hbm, ⟨14, _⟩ => ⟨S1x11008, .f32⟩
  | .hbm, ⟨15, _⟩ => ⟨S4096x11008, .f32⟩
  | .hbm, ⟨16, _⟩ => ⟨S4096x11008, .f32⟩
  | .hbm, ⟨17, _⟩ => ⟨S4096x1, .f32⟩
  | .hbm, ⟨18, _⟩ => ⟨S4096x11008, .f32⟩
  | .hbm, ⟨19, _⟩ => ⟨S4096x11008, .f32⟩
  | _, _ => ⟨S256x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S_S5636096 : S_.BroadcastsInDim S5636096 (![] : Fin 0 → Fin S5636096.rank)
  bcast_S5636096_S5636096x1_0 : S5636096.BroadcastsInDim S5636096x1 (![0] : Fin 1 → Fin S5636096x1.rank)
  shapeCasts_S5636096x8_S4096x11008 : S5636096x8.ShapeCasts S4096x11008
  bcast_S11008_S1x11008_1 : S11008.BroadcastsInDim S1x11008 (![1] : Fin 1 → Fin S1x11008.rank)
  bcast_S1x11008_S4096x11008_0_1 : S1x11008.BroadcastsInDim S4096x11008 (![0, 1] : Fin 2 → Fin S4096x11008.rank)
  bcast_S4096_S4096x1_0 : S4096.BroadcastsInDim S4096x1 (![0] : Fin 1 → Fin S4096x1.rank)
  bcast_S4096x1_S4096x11008_0_1 : S4096x1.BroadcastsInDim S4096x11008 (![0, 1] : Fin 2 → Fin S4096x11008.rank)
  gather_S256x8_S5636096x1_S5636096x8_1_0_n_n_0_1_18_wf : GatherDims.WF S256x8 S5636096x1 S5636096x8 [1] [0] [] [0] [] 1 ![1, 8]

variable [Facts₀]

def gather_S256x8_S5636096x1_S5636096x8_1_0_n_n_0_1_18 : GatherDims S256x8 S5636096x1 S5636096x8 where
  offsetDims := [1]
  collapsedSliceDims := [0]
  operandBatchingDims := []
  startIndicesBatchingDims := []
  startIndexMap := [0]
  indexVectorDim := 1
  sliceSizes := ![1, 8]
  wf := gather_S256x8_S5636096x1_S5636096x8_1_0_n_n_0_1_18_wf

class Facts : Prop extends Facts₀ where

variable [Facts]
-- ==== Proof.LibGatherScatter.lean ====
/-
  Row gathers and row scatters read at an index.

  `x[idx]` along axis 0 of a matrix `x : [N, D]` (or of a vector `x : [N]`) at start indices `idx : [E, 1]` reads row
  `idx[e, 0]`, taken as a signed integer and clamped into `[0, N - 1]`. The accumulating scatter of updates
  `[E, D]` into `[N, D]` at the same kind of indices adds update row `e` to row `idx[e, 0]`, read signed and NOT
  clamped: a row index outside `[0, N)` drops the update. Both are stated here for any extents.
-/
import Idealize.ShloMosaic.Lib.ValueIdx
import Idealize.ShloMosaic.PureOps.Ideal

noncomputable section

namespace LibGatherScatter

open Idealize.ShloMosaic Idealize.ShloMosaic.ValueIdx

/-- The row a start index word names in an axis of extent `N`: the word as a signed integer, clamped into `[0, N - 1]`. -/
def clampRow (N : Nat) (hN : 0 < N) {w : Nat} (v : BitVec w) : Fin N := ⟨min v.toInt.toNat (N - 1), by omega⟩

section Gather
variable {α : Type}

/-- The dimension numbers of `x[idx]` along axis 0 of a matrix: rows of `D` entries, one start index per result row. -/
abbrev rowsDims (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry `(e, k)` of the row gather is the matrix at row `clampRow idx[e, 0]`, column `k`. -/
theorem gather_rows_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowsDims N E D wf) x idx (ix2 e k) = x (ix2 (clampRow N hN (idx (ix2 e (0 : Fin 1)))) k) := by
  unfold Host.gather
  congr 1
  funext a
  refine Fin.ext ?_
  match a with
  | ⟨0, _⟩ =>
    show (rowsDims N E D wf).start (ix2 e k) idx 0 + (rowsDims N E D wf).batchCoord (ix2 e k) 0
      + (rowsDims N E D wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E D wf).startIndexMap from List.mem_singleton.mpr rfl)]
    have hsi : (rowsDims N E D wf).siIdx (ix2 e k) ⟨List.idxOf (0 : Fin 2) (rowsDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N E D wf).start (ix2 e k) idx 1 + (rowsDims N E D wf).batchCoord (ix2 e k) 1
      + (rowsDims N E D wf).offCoord (ix2 e k) 1 = k.val
    rw [GatherDims.batchCoord_eq_zero _ _ _ List.not_mem_nil]
    unfold GatherDims.start
    rw [dif_neg (show ¬ (1 : Fin 2) ∈ (rowsDims N E D wf).startIndexMap from (by decide : ¬ (1 : Fin 2) ∈ ([0] : List (Fin 2))))]
    simp only [Nat.add_zero, Nat.zero_add]
    unfold GatherDims.offCoord
    rw [dif_pos (show (1 : Fin 2) ∈ (rowsDims N E D wf).sKept from (GatherDims.mem_sKept _ _).mpr ⟨(by decide : ¬ (1 : Fin 2) ∈ ([0] : List (Fin 2))), List.not_mem_nil⟩)]
    rfl

/-- The dimension numbers of `x[idx]` of a vector: one entry per start index. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the vector gather is the vector at `clampRow idx[e, 0]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (clampRow N hN (idx (ix2 e (0 : Fin 1))))) := by
  unfold Host.gather
  congr 1
  funext a
  obtain rfl : a = 0 := Subsingleton.elim _ _
  refine Fin.ext ?_
  show (vecDims N E wf).start (ix1 e) idx 0 + (vecDims N E wf).batchCoord (ix1 e) 0 + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

section Scatter

/-- The dimension numbers of the accumulating row scatter: update row `e` goes to the row its index word names. -/
abbrev scatRowsDims (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)

theorem scat_start0 (idx : IVec ⟨2, ![E, 1]⟩ w) (e : Fin E) (k : Fin D) :
    (scatRowsDims N E D wf).start (ix2 e k) idx 0 = (idx (ix2 e (0 : Fin 1))).toInt := by
  unfold ScatterDims.start
  rw [dif_pos (show (0 : Fin 2) ∈ (scatRowsDims N E D wf).scatterDimsToOperandDims from List.mem_singleton.mpr rfl)]
  have hsi : (scatRowsDims N E D wf).siIdx (ix2 e k) ⟨List.idxOf (0 : Fin 2) (scatRowsDims N E D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scat_start1 (idx : IVec ⟨2, ![E, 1]⟩ w) (e : Fin E) (k : Fin D) :
    (scatRowsDims N E D wf).start (ix2 e k) idx 1 = 0 := by
  unfold ScatterDims.start
  rw [dif_neg (show ¬ (1 : Fin 2) ∈ (scatRowsDims N E D wf).scatterDimsToOperandDims from
    (by decide : ¬ (1 : Fin 2) ∈ ([0] : List (Fin 2))))]

theorem scat_window0 (e : Fin E) (k : Fin D) : (scatRowsDims N E D wf).window (ix2 e k) 0 = 0 := by
  unfold ScatterDims.window
  rw [dif_neg]
  intro h
  have : (0 : Fin 2) ∈ (⟨2, ![N, D]⟩ : Shape).kept [0] := h
  simp [Shape.kept] at this

theorem scat_window1 (e : Fin E) (k : Fin D) : (scatRowsDims N E D wf).window (ix2 e k) 1 = k.val := by
  unfold ScatterDims.window
  rw [dif_pos (show (1 : Fin 2) ∈ (scatRowsDims N E D wf).sKept by
    show (1 : Fin 2) ∈ (⟨2, ![N, D]⟩ : Shape).kept [0]; simp [Shape.kept])]
  rfl

/-- Update `(e, k)` lands on `(n, k')` exactly when the edge's index word, read signed, is `n` and `k = k'`. -/
theorem scatter_rows_resultIdx (idx : IVec ⟨2, ![E, 1]⟩ w) (e : Fin E) (k : Fin D) (n : Fin N) (k' : Fin D) :
    (scatRowsDims N E D wf).resultIdx? (ix2 e k) idx = some (ix2 n k')
      ↔ (idx (ix2 e (0 : Fin 1))).toInt = (n.val : ℤ) ∧ k = k' := by
  unfold ScatterDims.resultIdx?
  constructor
  · intro h
    split at h
    · rename_i hall
      have h' := Option.some.inj h
      have h0 := congrArg (fun f => (f 0).val) h'
      have h1 := congrArg (fun f => (f 1).val) h'
      simp only [scat_start0, scat_start1, scat_window0, scat_window1] at h0 h1
      have hb := hall 0
      simp only [scat_start0, scat_window0] at hb
      refine ⟨?_, Fin.ext ?_⟩
      · have : ((idx (ix2 e (0 : Fin 1))).toInt + ((0 : Nat) : ℤ)).toNat = n.val := h0
        omega
      · have : ((0 : ℤ) + ((k.val : Nat) : ℤ)).toNat = k'.val := h1
        omega
    · exact absurd h (by simp)
  · rintro ⟨hn, rfl⟩
    have hall : ∀ a, 0 ≤ (scatRowsDims N E D wf).start (ix2 e k) idx a + (scatRowsDims N E D wf).window (ix2 e k) a ∧
        (scatRowsDims N E D wf).start (ix2 e k) idx a + (scatRowsDims N E D wf).window (ix2 e k) a < (⟨2, ![N, D]⟩ : Shape).size a := by
      intro a
      match a with
      | ⟨0, _⟩ =>
        show 0 ≤ (scatRowsDims N E D wf).start (ix2 e k) idx 0 + ((scatRowsDims N E D wf).window (ix2 e k) 0 : ℤ) ∧
          (scatRowsDims N E D wf).start (ix2 e k) idx 0 + ((scatRowsDims N E D wf).window (ix2 e k) 0 : ℤ) < (N : ℤ)
        rw [scat_start0, scat_window0, hn]; have := n.isLt; omega
      | ⟨1, _⟩ =>
        show 0 ≤ (scatRowsDims N E D wf).start (ix2 e k) idx 1 + ((scatRowsDims N E D wf).window (ix2 e k) 1 : ℤ) ∧
          (scatRowsDims N E D wf).start (ix2 e k) idx 1 + ((scatRowsDims N E D wf).window (ix2 e k) 1 : ℤ) < (D : ℤ)
        rw [scat_start1, scat_window1]; have := k.isLt; omega
    rw [dif_pos hall]
    congr 1
    funext a
    refine Fin.ext ?_
    match a with
    | ⟨0, _⟩ =>
      show ((scatRowsDims N E D wf).start (ix2 e k) idx 0 + ((scatRowsDims N E D wf).window (ix2 e k) 0 : ℤ)).toNat = n.val
      rw [scat_start0, scat_window0, hn]; omega
    | ⟨1, _⟩ =>
      show ((scatRowsDims N E D wf).start (ix2 e k) idx 1 + ((scatRowsDims N E D wf).window (ix2 e k) 1 : ℤ)).toNat = k.val
      rw [scat_start1, scat_window1]; omega

/-- THE ACCUMULATING ROW SCATTER READ AT `(n, d)`, on the extended reals: the operand's entry plus the sum, over the
    edges whose index word read signed is `n`, of the update's entry `(e, d)`. -/
theorem scatterAdd_rows_apply (x : (⟨2, ![N, D]⟩ : Shape).Idx → EReal) (idx : IVec ⟨2, ![E, 1]⟩ w)
    (upd : (⟨2, ![E, D]⟩ : Shape).Idx → EReal) (n : Fin N) (d : Fin D) :
    Ideal.hostScatterAdd (scatRowsDims N E D wf) x idx upd (ix2 n d)
      = x (ix2 n d) + ∑ e ∈ Finset.univ.filter (fun e : Fin E => (idx (ix2 e (0 : Fin 1))).toInt = (n.val : ℤ)), upd (ix2 e d) := by
  unfold Ideal.hostScatterAdd
  congr 1
  have key : ∀ j : (⟨2, ![E, D]⟩ : Shape).Idx, (scatRowsDims N E D wf).resultIdx? j idx = some (ix2 n d) →
      (idx (ix2 (⟨(j 0).val, idx2_lt0 j⟩ : Fin E) (0 : Fin 1))).toInt = (n.val : ℤ) ∧ j = ix2 (⟨(j 0).val, idx2_lt0 j⟩ : Fin E) d := by
    intro j hj
    have hj2 := hj
    rw [eq_ix2 j] at hj2
    have h := (scatter_rows_resultIdx wf idx (⟨(j 0).val, idx2_lt0 j⟩ : Fin E) (⟨(j 1).val, idx2_lt1 j⟩ : Fin D) n d).mp hj2
    refine ⟨h.1, ?_⟩
    rw [← h.2]; exact eq_ix2 j
  refine Finset.sum_bij' (fun j _ => (⟨(j 0).val, idx2_lt0 j⟩ : Fin E)) (fun e _ => ix2 e d) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (scatter_rows_resultIdx wf idx e d n d).mpr ⟨(Finset.mem_filter.mp he).2, rfl⟩⟩
  · intro j hj
    exact ((key j (Finset.mem_filter.mp hj).2).2).symm
  · intro e _; rfl
  · intro j hj
    exact congrArg upd (key j (Finset.mem_filter.mp hj).2).2

end Scatter

end LibGatherScatter

end
-- ==== Proof.OneHotGather.lean ====
/-
  A codebook row fetched by a one-hot product, and one chunk of the dequantised weight read at an index.

  An assignment word `a`, read as a signed integer in `[0, 256)`, names row `a` of a codebook `cb : [256, 8]`.
  The 0/1 vector `k ↦ [a = k]` multiplied against the codebook and summed over `k` is that row: every term but
  the one at `k = a` is `0 · cb[k, e] = 0` on the extended reals, and the remaining one is `1 · cb[a, e]`.

  A chunk is `G` consecutive groups of 8 columns for 64 rows. Its value at row `t`, column `c = 8 g + e` is
  `cb[a[t, g], e] · rn[g, e] · col[t]`: the one-hot rows `(t, g)` are laid out as the `64 G` rows of one matrix
  product with the codebook, whose row `t G + g`, column `e` is the sum above.
-/
import Idealize.ShloMosaic.Lib.ValueIdx
import Idealize.ShloMosaic.Lib.Pipeline.Value
import Idealize.ShloMosaic.Lib.StableHlo.Predicate
import Idealize.ShloMosaic.PureOps.Ideal
import Idealize.ShloMosaic.PureOps.Ideal.Laws
import proofs.«402330_j30803505447135_3_alg».proof.Proof.LibGatherScatter

noncomputable section

namespace Codebook

open Idealize.ShloMosaic Idealize.ShloMosaic.ValueIdx

/-- The codebook row an assignment word names: the word as a signed integer, clamped into `[0, 255]`. -/
def row (v : BitVec 32) : Fin 256 := LibGatherScatter.clampRow 256 (by decide) v

/-- A word whose signed value is not negative has that value as its unsigned one. -/
theorem toInt_eq_toNat {v : BitVec 32} (h0 : 0 ≤ v.toInt) : v.toInt = (v.toNat : ℤ) := by
  have hlt := v.isLt
  rw [BitVec.toInt_eq_toNat_cond] at h0 ⊢
  split_ifs at h0 ⊢ with h
  · rfl
  · omega

/-- In range, the row is the word's value. -/
theorem row_val {v : BitVec 32} (h0 : 0 ≤ v.toInt) (h1 : v.toInt < 256) : (row v).val = v.toNat := by
  have h := toInt_eq_toNat h0
  show min v.toInt.toNat (256 - 1) = v.toNat
  omega

/-- In range, the word is its row's number. -/
theorem eq_ofNat_row {v : BitVec 32} (h0 : 0 ≤ v.toInt) (h1 : v.toInt < 256) : v = BitVec.ofNat 32 (row v).val := by
  apply BitVec.eq_of_toNat_eq
  rw [row_val h0 h1, BitVec.toNat_ofNat]
  have := v.isLt
  omega

/-- One entry of the one-hot vector on the extended reals: `1` where the word is `k`, else `0`. -/
theorem onehot_entry (a : BitVec 32) (k : Fin 256) :
    FloatOps.sitofp (F := Ideal) .f32 ((IntOp.cmpi .eq a (BitVec.ofNat 32 k.val)).setWidth 32)
      = if a = BitVec.ofNat 32 k.val then (1 : EReal) else 0 := by
  by_cases h : a = BitVec.ofNat 32 k.val
  · rw [if_pos h, StableHlo.Predicate.cmpi_eq_iff.mpr h]
    show (((((1#1 : BitVec 1).setWidth 32).toInt : ℤ) : ℝ) : EReal) = 1
    rw [show ((1#1 : BitVec 1).setWidth 32).toInt = 1 from by decide]
    simp
  · rw [if_neg h, eq_zero_of_ne_one (fun hc => h (StableHlo.Predicate.cmpi_eq_iff.mp hc))]
    show (((((0#1 : BitVec 1).setWidth 32).toInt : ℤ) : ℝ) : EReal) = 0
    rw [show ((0#1 : BitVec 1).setWidth 32).toInt = 0 from by decide]
    simp

/-- THE ONE-HOT SUM: against any column `c` of the codebook, the one-hot vector of an in-range word picks `c` at the
    word's row. Off the row the term is `0 · c k = 0`, whatever extended real `c k` is. -/
theorem onehot_sum (a : BitVec 32) (h0 : 0 ≤ a.toInt) (h1 : a.toInt < 256) (c : Fin 256 → EReal) :
    ∑ k : Fin 256, FloatOps.sitofp (F := Ideal) .f32 ((IntOp.cmpi .eq a (BitVec.ofNat 32 k.val)).setWidth 32) * c k
      = c (row a) := by
  rw [Finset.sum_eq_single (row a)]
  · rw [onehot_entry, if_pos (eq_ofNat_row h0 h1), one_mul]
  · intro k _ hk
    rw [onehot_entry, if_neg, zero_mul]
    intro hak
    apply hk
    apply Fin.ext
    rw [row_val h0 h1, hak, BitVec.toNat_ofNat]
    have := k.isLt
    omega
  · intro h
    exact absurd (Finset.mem_univ _) h

/-- Row `t G + g` of a matrix of `64 G` rows. -/
theorem flat_lt {G : Nat} (t : Fin 64) (g : Fin G) : t.val * G + g.val < 64 * G := by
  have ht := t.isLt
  have hg := g.isLt
  calc t.val * G + g.val < t.val * G + G := by omega
    _ = (t.val + 1) * G := by ring
    _ ≤ 64 * G := Nat.mul_le_mul_right G (by omega)

/-- ONE CHUNK AT AN INDEX. For 64 rows and `G` groups: the assignment words `a : [64, G]` are compared against the
    codeword numbers `io[t, g, k] = k`, the 0/1 result is laid out as a `[64 G, 256]` matrix and multiplied with the
    codebook `cb : [256, 8]`; the product, laid out `[64, G, 8]`, is scaled by `rn : [G, 8]` along the rows and by
    `col : [64, 1, 1]` along the groups and columns, and laid out `[64, 8 G]`. At row `t` and column `c = 8 g + e`,
    for an in-range word `a[t, g]`, that is `cb[a[t, g], e] · rn[g, e] · col[t]`. The dimension numbers `d` are any
    that contract the one-hot matrix's columns with the codebook's rows (`hl0` … `hr1`). -/
theorem chunk_apply {G M C : Nat} (hM : M = 64 * G) (hC : C = G * 8)
    (d : DotDims ⟨2, ![M, 256]⟩ ⟨2, ![256, 8]⟩ ⟨2, ![M, 8]⟩)
    (hr : d.contr.rank = 1) (hs : d.contr.size ⟨0, by omega⟩ = 256)
    (hl0 : ∀ (i : (⟨2, ![M, 8]⟩ : Shape).Idx) (q : d.contr.Idx), (d.lhsIdx i q 0).val = (i 0).val)
    (hl1 : ∀ (i : (⟨2, ![M, 8]⟩ : Shape).Idx) (q : d.contr.Idx), (d.lhsIdx i q 1).val = (q ⟨0, by omega⟩).val)
    (hr0 : ∀ (i : (⟨2, ![M, 8]⟩ : Shape).Idx) (q : d.contr.Idx), (d.rhsIdx i q 0).val = (q ⟨0, by omega⟩).val)
    (hr1 : ∀ (i : (⟨2, ![M, 8]⟩ : Shape).Idx) (q : d.contr.Idx), (d.rhsIdx i q 1).val = (i 1).val)
    (h1 : (⟨2, ![64, G]⟩ : Shape).ShapeCasts ⟨2, ![64, G]⟩)
    (h2 : (⟨2, ![64, G]⟩ : Shape).ShapeCasts ⟨3, ![64, G, 1]⟩)
    (h3 : (⟨3, ![64, G, 1]⟩ : Shape).Broadcasts ⟨3, ![64, G, 256]⟩)
    (h4 : (⟨3, ![64, G, 256]⟩ : Shape).ShapeCasts ⟨2, ![M, 256]⟩)
    (h5 : (⟨2, ![M, 8]⟩ : Shape).ShapeCasts ⟨3, ![64, G, 8]⟩)
    (h6 : (⟨2, ![G, 8]⟩ : Shape).ShapeCasts ⟨2, ![G, 8]⟩)
    (h7 : (⟨2, ![G, 8]⟩ : Shape).ShapeCasts ⟨3, ![1, G, 8]⟩)
    (h8 : (⟨3, ![1, G, 8]⟩ : Shape).Broadcasts ⟨3, ![64, G, 8]⟩)
    (h9 : (⟨3, ![64, 1, 1]⟩ : Shape).Broadcasts ⟨3, ![64, G, 8]⟩)
    (h10 : (⟨3, ![64, G, 8]⟩ : Shape).ShapeCasts ⟨2, ![64, C]⟩)
    (hlt : 1 < 32) (hb : FTy.bits .bf16 < FTy.bits .f32)
    (cb : FVec Ideal ⟨2, ![256, 8]⟩ .bf16) (col : FVec Ideal ⟨3, ![64, 1, 1]⟩ .f32)
    (io : IVec ⟨3, ![64, G, 256]⟩ 32) (hio : ∀ i : (⟨3, ![64, G, 256]⟩ : Shape).Idx, io i = BitVec.ofNat 32 (i 2).val)
    (a : IVec ⟨2, ![64, G]⟩ 32) (rn : FVec Ideal ⟨2, ![G, 8]⟩ .f32)
    (t : Fin 64) (g : Fin G) (e : Fin 8) (c : Fin C) (hc : c.val = g.val * 8 + e.val)
    (ha0 : 0 ≤ (a (ix2 t g)).toInt) (ha1 : (a (ix2 t g)).toInt < 256) :
    shapeCast ⟨2, ![64, C]⟩ (mulf (mulf (shapeCast ⟨3, ![64, G, 8]⟩ (matmul d none (shapeCast ⟨2, ![M, 256]⟩
        (truncf .bf16 (sitofp .f32 (extui 32 (cmpi .eq (broadcastTo ⟨3, ![64, G, 256]⟩ (shapeCast ⟨3, ![64, G, 1]⟩
          (shapeCast ⟨2, ![64, G]⟩ a h1) h2) h3) io) hlt)) hb) h4) cb (constant ⟨2, ![M, 8]⟩ .f32 0x00000000#32)) h5)
        (broadcastTo ⟨3, ![64, G, 8]⟩ (shapeCast ⟨3, ![1, G, 8]⟩ (shapeCast ⟨2, ![G, 8]⟩ rn h6) h7) h8))
        (broadcastTo ⟨3, ![64, G, 8]⟩ col h9)) h10 (ix2 t c)
      = cb (ix2 (row (a (ix2 t g))) e) * rn (ix2 g e) * col (ix3 t (0 : Fin 1) (0 : Fin 1)) := by
  subst hM hC
  -- column `8 g + e` of row `t` is entry `(t, g, e)`
  rw [shapeCast_apply _ h10 (ix2 t c) (ix3 t g e) (by
    rw [Shape.rowMajor_val_three, Shape.rowMajor_val_two]
    show (t.val * G + g.val) * 8 + e.val = t.val * (G * 8) + c.val
    rw [hc]; ring)]
  rw [mulf_apply, mulf_apply]
  refine congrArg₂ (· * ·) (congrArg₂ (· * ·) ?_ ?_) ?_
  · -- the product: entry `(t, g, e)` is row `t G + g`, column `e` of the matrix product
    rw [shapeCast_apply _ h5 (ix3 t g e) (ix2 (⟨t.val * G + g.val, flat_lt t g⟩ : Fin (64 * G)) e) (by
      rw [Shape.rowMajor_val_three, Shape.rowMajor_val_two]; rfl)]
    show FloatOps.matmul d none _ cb (constant ⟨2, ![64 * G, 8]⟩ .f32 0x00000000#32) _ = _
    rw [Ideal.matmul_constant_zero_apply, ← Equiv.sum_comp (contrEquiv1 d 256 hr hs).symm]
    rw [← onehot_sum (a (ix2 t g)) ha0 ha1 (fun k => cb (ix2 k e))]
    refine Finset.sum_congr rfl fun k _ => ?_
    have hk := contrEquiv1_symm_val d 256 hr hs k
    have el : d.lhsIdx (ix2 (⟨t.val * G + g.val, flat_lt t g⟩ : Fin (64 * G)) e) ((contrEquiv1 d 256 hr hs).symm k)
        = ix2 (⟨t.val * G + g.val, flat_lt t g⟩ : Fin (64 * G)) k := funext fun x => Fin.ext (by
      match x with
      | ⟨0, _⟩ => exact hl0 _ _
      | ⟨1, _⟩ => exact (hl1 _ _).trans hk)
    have er : d.rhsIdx (ix2 (⟨t.val * G + g.val, flat_lt t g⟩ : Fin (64 * G)) e) ((contrEquiv1 d 256 hr hs).symm k)
        = ix2 k e := funext fun x => Fin.ext (by
      match x with
      | ⟨0, _⟩ => exact (hr0 _ _).trans hk
      | ⟨1, _⟩ => exact hr1 _ _)
    rw [el, er]
    refine congrArg (· * cb (ix2 k e)) ?_
    -- row `t G + g`, column `k` of the one-hot matrix is entry `(t, g, k)` of the comparison
    rw [shapeCast_apply _ h4 (ix2 (⟨t.val * G + g.val, flat_lt t g⟩ : Fin (64 * G)) k) (ix3 t g k) (by
      rw [Shape.rowMajor_val_three, Shape.rowMajor_val_two]; rfl)]
    rw [truncf_apply, sitofp_apply, extui_apply]
    show FloatOps.sitofp (F := Ideal) .f32 ((IntOp.cmpi .eq (broadcastTo ⟨3, ![64, G, 256]⟩ (shapeCast ⟨3, ![64, G, 1]⟩
      (shapeCast ⟨2, ![64, G]⟩ a h1) h2) h3 (ix3 t g k)) (io (ix3 t g k))).setWidth 32) = _
    rw [hio, broadcastTo_apply _ h3 (ix3 t g k) (ix3 t g (0 : Fin 1)) (by
      intro x
      match x with
      | ⟨0, _⟩ => show t.val = if (64 : Nat) = 1 then 0 else t.val; rw [if_neg (by decide)]
      | ⟨1, _⟩ =>
        show g.val = if G = 1 then 0 else g.val
        split_ifs with hG
        · have := g.isLt; omega
        · rfl
      | ⟨2, _⟩ => show (0 : Nat) = if (1 : Nat) = 1 then 0 else k.val; rw [if_pos rfl])]
    rw [shapeCast_apply _ h2 (ix3 t g (0 : Fin 1)) (ix2 t g) (by
      rw [Shape.rowMajor_val_three, Shape.rowMajor_val_two]
      show t.val * G + g.val = (t.val * G + g.val) * 1 + 0
      omega), shapeCast_self]
    rfl
  · -- the row scale: entry `(t, g, e)` reads `rn[g, e]`
    rw [broadcastTo_apply _ h8 (ix3 t g e) (ix3 (0 : Fin 1) g e) (by
      intro x
      match x with
      | ⟨0, _⟩ => show (0 : Nat) = if (1 : Nat) = 1 then 0 else t.val; rw [if_pos rfl]
      | ⟨1, _⟩ =>
        show g.val = if G = 1 then 0 else g.val
        split_ifs with hG
        · have := g.isLt; omega
        · rfl
      | ⟨2, _⟩ => show e.val = if (8 : Nat) = 1 then 0 else e.val; rw [if_neg (by decide)])]
    rw [shapeCast_apply _ h7 (ix3 (0 : Fin 1) g e) (ix2 g e) (by
      rw [Shape.rowMajor_val_three, Shape.rowMajor_val_two]
      show g.val * 8 + e.val = (0 * G + g.val) * 8 + e.val
      omega), shapeCast_self]
  · -- the column scale: entry `(t, g, e)` reads `col[t]`
    rw [broadcastTo_apply _ h9 (ix3 t g e) (ix3 t (0 : Fin 1) (0 : Fin 1)) (by
      intro x
      match x with
      | ⟨0, _⟩ => show t.val = if (64 : Nat) = 1 then 0 else t.val; rw [if_neg (by decide)]
      | ⟨1, _⟩ => show (0 : Nat) = if (1 : Nat) = 1 then 0 else g.val; rw [if_pos rfl]
      | ⟨2, _⟩ => show (0 : Nat) = if (1 : Nat) = 1 then 0 else e.val; rw [if_pos rfl])]

end Codebook

end
-- ==== Proof.Weight.lean ====
/-
  The dequantised weight, as one function of the four argument arrays.

  The weight matrix is `[4096, 11008]`; its columns come in 1376 groups of 8. Entry `(i, j)`, with group `j / 8` and
  position `j % 8` inside the group, is

      codebook[assignments[1376 i + j / 8], j % 8] · rowwise_norms[j] · columnwise_norms[i],

  the assignment word read as a codebook row (`Codebook.row`). `blockWeight` is the same function for one block of 64
  rows, over the block's own pieces of the arrays: 64 rows of assignment words, the row norms laid out `[1376, 8]`, and
  the 64 column norms as a column.
-/
import proofs.«402330_j30803505447135_3_alg».proof.Proof.OneHotGather

noncomputable section

namespace Codebook

open Idealize.ShloMosaic Idealize.ShloMosaic.ValueIdx

/-- The group of column `j`. -/
theorem group_lt {j : Nat} (h : j < 11008) : j / 8 < 1376 := by omega

/-- The position of column `j` inside its group. -/
theorem pos_lt (j : Nat) : j % 8 < 8 := Nat.mod_lt _ (by decide)

/-- Group `j / 8` of row `i` is assignment word `1376 i + j / 8`. -/
theorem word_lt {i j : Nat} (hi : i < 4096) (hj : j < 11008) : i * 1376 + j / 8 < 5636096 := by omega

/-- THE WEIGHT MATRIX. -/
def weight (cb : (⟨2, ![256, 8]⟩ : Shape).Idx → EReal) (a : (⟨1, ![5636096]⟩ : Shape).Idx → BitVec 32)
    (rn : (⟨1, ![11008]⟩ : Shape).Idx → EReal) (cn : (⟨1, ![4096]⟩ : Shape).Idx → EReal) :
    (⟨2, ![4096, 11008]⟩ : Shape).Idx → EReal := fun y =>
  cb (ix2 (row (a (ix1 (⟨(y 0).val * 1376 + (y 1).val / 8, word_lt (idx2_lt0 y) (idx2_lt1 y)⟩ : Fin 5636096))))
      (⟨(y 1).val % 8, pos_lt _⟩ : Fin 8))
    * rn (ix1 (⟨(y 1).val, idx2_lt1 y⟩ : Fin 11008)) * cn (ix1 (⟨(y 0).val, idx2_lt0 y⟩ : Fin 4096))

/-- ONE BLOCK OF 64 ROWS, from the block's assignment words `[64, 1376]`, the codebook, the row norms laid out
    `[1376, 8]` and the block's column norms `[64, 1]`. -/
def blockWeight (a : (⟨2, ![64, 1376]⟩ : Shape).Idx → BitVec 32) (cb : (⟨2, ![256, 8]⟩ : Shape).Idx → EReal)
    (rn : (⟨2, ![1376, 8]⟩ : Shape).Idx → EReal) (cn : (⟨2, ![64, 1]⟩ : Shape).Idx → EReal) :
    (⟨2, ![64, 11008]⟩ : Shape).Idx → EReal := fun y =>
  cb (ix2 (row (a (ix2 (⟨(y 0).val, idx2_lt0 y⟩ : Fin 64) (⟨(y 1).val / 8, group_lt (idx2_lt1 y)⟩ : Fin 1376))))
      (⟨(y 1).val % 8, pos_lt _⟩ : Fin 8))
    * rn (ix2 (⟨(y 1).val / 8, group_lt (idx2_lt1 y)⟩ : Fin 1376) (⟨(y 1).val % 8, pos_lt _⟩ : Fin 8))
    * cn (ix2 (⟨(y 0).val, idx2_lt0 y⟩ : Fin 64) (0 : Fin 1))

/-- The block's entry at an index whose row is `t`, whose column has group `g` and position `e`. -/
theorem blockWeight_apply (a : (⟨2, ![64, 1376]⟩ : Shape).Idx → BitVec 32) (cb : (⟨2, ![256, 8]⟩ : Shape).Idx → EReal)
    (rn : (⟨2, ![1376, 8]⟩ : Shape).Idx → EReal) (cn : (⟨2, ![64, 1]⟩ : Shape).Idx → EReal)
    (y : (⟨2, ![64, 11008]⟩ : Shape).Idx) (t : Fin 64) (g : Fin 1376) (e : Fin 8)
    (h0 : (y 0).val = t.val) (hg : (y 1).val / 8 = g.val) (he : (y 1).val % 8 = e.val) :
    blockWeight a cb rn cn y = cb (ix2 (row (a (ix2 t g))) e) * rn (ix2 g e) * cn (ix2 t (0 : Fin 1)) := by
  unfold blockWeight
  have e0 : (⟨(y 0).val, idx2_lt0 y⟩ : Fin 64) = t := Fin.ext h0
  have e1 : (⟨(y 1).val / 8, group_lt (idx2_lt1 y)⟩ : Fin 1376) = g := Fin.ext hg
  have e2 : (⟨(y 1).val % 8, pos_lt _⟩ : Fin 8) = e := Fin.ext he
  rw [e0, e1, e2]

/-- The matrix's entry at an index whose row is `i`, whose column is `j` with position `e` in its group, the group's
    assignment word being word `w`. -/
theorem weight_apply (cb : (⟨2, ![256, 8]⟩ : Shape).Idx → EReal) (a : (⟨1, ![5636096]⟩ : Shape).Idx → BitVec 32)
    (rn : (⟨1, ![11008]⟩ : Shape).Idx → EReal) (cn : (⟨1, ![4096]⟩ : Shape).Idx → EReal)
    (y : (⟨2, ![4096, 11008]⟩ : Shape).Idx) (i : Fin 4096) (j : Fin 11008) (w : Fin 5636096) (e : Fin 8)
    (h0 : (y 0).val = i.val) (h1 : (y 1).val = j.val) (hw : (y 0).val * 1376 + (y 1).val / 8 = w.val)
    (he : (y 1).val % 8 = e.val) :
    weight cb a rn cn y = cb (ix2 (row (a (ix1 w))) e) * rn (ix1 j) * cn (ix1 i) := by
  unfold weight
  have e0 : (⟨(y 0).val, idx2_lt0 y⟩ : Fin 4096) = i := Fin.ext h0
  have e1 : (⟨(y 1).val, idx2_lt1 y⟩ : Fin 11008) = j := Fin.ext h1
  have e2 : (⟨(y 0).val * 1376 + (y 1).val / 8, word_lt (idx2_lt0 y) (idx2_lt1 y)⟩ : Fin 5636096) = w := Fin.ext hw
  have e3 : (⟨(y 1).val % 8, pos_lt _⟩ : Fin 8) = e := Fin.ext he
  rw [e0, e1, e2, e3]

end Codebook

end
-- ==== Proof.BlockValue.lean ====
/-
  What one grid point leaves in its output block.

  The body fills the `[64, 11008]` output block in 11 stores: ten of `[64, 1024]` (128 groups each, at columns
  `0, 1024, …, 9216`) and a last one of `[64, 768]` (96 groups, at column `10240`). Each store's value is one chunk
  (`Codebook.chunk_apply`) of the block's own inputs: the assignment words of the chunk's groups, the row norms of the
  chunk's groups, the codebook and the block's column norms. A chunk at group offset `g₀` read at its column `c` is
  `Codebook.blockWeight` at block column `8 g₀ + c`: the group is `g₀ + c / 8` and the position `c % 8`. So all 11
  pieces are restrictions of the ONE function `blockWeight` of the block's inputs, and since the pieces cover the
  block, the block ends holding `blockWeight` everywhere. The assignment words are taken in `[0, 256)`.
-/
import proofs.«402330_j30803505447135_3_alg».proof.Proof.Gen.KernelIdeal.Frame
import proofs.«402330_j30803505447135_3_alg».proof.Proof.Weight

set_option maxRecDepth 16384

noncomputable section

namespace Cert.KernelIdeal.BlockValue

open Cert.KernelIdeal Cert.KernelIdeal.Gen Idealize.ShloMosaic Idealize.ShloMosaic.TcCoe Idealize.ShloMosaic.Tactic
open Idealize.ShloMosaic.ValueIdx Idealize.SL.Sem

/-! ## The two matrix products' dimension numbers: which coordinate each operand index takes -/

theorem lhs128_0 (i : S8192x8.Idx) (q : dot_S8192x256_S256x8_S8192x8_1_0_0_1_n_n.contr.Idx) :
    (dot_S8192x256_S256x8_S8192x8_1_0_0_1_n_n.lhsIdx i q 0).val = (i 0).val := by
  unfold DotDims.lhsIdx
  rw [dif_neg (show ¬(0 : Fin S8192x256.rank) ∈ dot_S8192x256_S256x8_S8192x8_1_0_0_1_n_n.lhsBatch by decide),
    dif_pos (show (0 : Fin S8192x256.rank) ∈ dot_S8192x256_S256x8_S8192x8_1_0_0_1_n_n.lhsNonContracting by decide)]
  rfl
theorem lhs128_1 (i : S8192x8.Idx) (q : dot_S8192x256_S256x8_S8192x8_1_0_0_1_n_n.contr.Idx) :
    (dot_S8192x256_S256x8_S8192x8_1_0_0_1_n_n.lhsIdx i q 1).val = (q ⟨0, by decide⟩).val :=
  dot_S8192x256_S256x8_S8192x8_1_0_0_1_n_n.lhsIdx_val_of_single rfl i q
theorem rhs128_0 (i : S8192x8.Idx) (q : dot_S8192x256_S256x8_S8192x8_1_0_0_1_n_n.contr.Idx) :
    (dot_S8192x256_S256x8_S8192x8_1_0_0_1_n_n.rhsIdx i q 0).val = (q ⟨0, by decide⟩).val :=
  dot_S8192x256_S256x8_S8192x8_1_0_0_1_n_n.rhsIdx_val_of_single rfl i q
theorem rhs128_1 (i : S8192x8.Idx) (q : dot_S8192x256_S256x8_S8192x8_1_0_0_1_n_n.contr.Idx) :
    (dot_S8192x256_S256x8_S8192x8_1_0_0_1_n_n.rhsIdx i q 1).val = (i 1).val := by
  unfold DotDims.rhsIdx
  rw [dif_neg (show ¬(1 : Fin S256x8.rank) ∈ dot_S8192x256_S256x8_S8192x8_1_0_0_1_n_n.rhsBatch by decide),
    dif_pos (show (1 : Fin S256x8.rank) ∈ dot_S8192x256_S256x8_S8192x8_1_0_0_1_n_n.rhsNonContracting by decide)]
  rfl

theorem lhs96_0 (i : S6144x8.Idx) (q : dot_S6144x256_S256x8_S6144x8_1_0_0_1_n_n.contr.Idx) :
    (dot_S6144x256_S256x8_S6144x8_1_0_0_1_n_n.lhsIdx i q 0).val = (i 0).val := by
  unfold DotDims.lhsIdx
  rw [dif_neg (show ¬(0 : Fin S6144x256.rank) ∈ dot_S6144x256_S256x8_S6144x8_1_0_0_1_n_n.lhsBatch by decide),
    dif_pos (show (0 : Fin S6144x256.rank) ∈ dot_S6144x256_S256x8_S6144x8_1_0_0_1_n_n.lhsNonContracting by decide)]
  rfl
theorem lhs96_1 (i : S6144x8.Idx) (q : dot_S6144x256_S256x8_S6144x8_1_0_0_1_n_n.contr.Idx) :
    (dot_S6144x256_S256x8_S6144x8_1_0_0_1_n_n.lhsIdx i q 1).val = (q ⟨0, by decide⟩).val :=
  dot_S6144x256_S256x8_S6144x8_1_0_0_1_n_n.lhsIdx_val_of_single rfl i q
theorem rhs96_0 (i : S6144x8.Idx) (q : dot_S6144x256_S256x8_S6144x8_1_0_0_1_n_n.contr.Idx) :
    (dot_S6144x256_S256x8_S6144x8_1_0_0_1_n_n.rhsIdx i q 0).val = (q ⟨0, by decide⟩).val :=
  dot_S6144x256_S256x8_S6144x8_1_0_0_1_n_n.rhsIdx_val_of_single rfl i q
theorem rhs96_1 (i : S6144x8.Idx) (q : dot_S6144x256_S256x8_S6144x8_1_0_0_1_n_n.contr.Idx) :
    (dot_S6144x256_S256x8_S6144x8_1_0_0_1_n_n.rhsIdx i q 1).val = (i 1).val := by
  unfold DotDims.rhsIdx
  rw [dif_neg (show ¬(1 : Fin S256x8.rank) ∈ dot_S6144x256_S256x8_S6144x8_1_0_0_1_n_n.rhsBatch by decide),
    dif_pos (show (1 : Fin S256x8.rank) ∈ dot_S6144x256_S256x8_S6144x8_1_0_0_1_n_n.rhsNonContracting by decide)]
  rfl

/-! ## The small payloads at an index -/

/-- The codebook in the product's operand format: the same extended reals. -/
theorem codebook_apply (x1 : Vec Ideal S256x8 .f32) (i : S256x8.Idx) : k0_pay2 (F := Ideal) x1 i = x1 i := rfl

/-- The block's column norms `[64, 1]` laid out `[64, 1, 1]`. -/
theorem colnorm_apply (x3 : Vec Ideal S64x1 .f32) (t : Fin 64) :
    k0_pay3 (F := Ideal) x3 (ix3 t (0 : Fin 1) (0 : Fin 1)) = x3 (ix2 t (0 : Fin 1)) := by
  unfold k0_pay3
  rw [shapeCast_apply _ _ (ix3 t (0 : Fin 1) (0 : Fin 1)) (ix2 t (0 : Fin 1)) (by
    rw [Shape.rowMajor_val_three, Shape.rowMajor_val_two]
    show t.val * 1 + 0 = (t.val * 1 + 0) * 1 + 0
    omega), shapeCast_self]

/-! ## A store's value is the block function on the store's rectangle -/

/-- A chunk of 128 groups at group offset `g₀` (column offset `o = 8 g₀`). -/
theorem piece128 (o g0 : Nat) (ho : o = 8 * g0)
    (inbO : ∀ a, (![0, o] : Fin 2 → Nat) a + (![64, 1024] : Fin 2 → Nat) a ≤ S64x11008.size a)
    (inbA : ∀ a, (![0, g0] : Fin 2 → Nat) a + (![64, 128] : Fin 2 → Nat) a ≤ S64x1376.size a)
    (inbR : ∀ a, (![g0, 0] : Fin 2 → Nat) a + (![128, 8] : Fin 2 → Nat) a ≤ S1376x8.size a)
    (x0 : Vec Ideal S64x1376 .i32) (x1 : Vec Ideal S256x8 .f32) (x2 : Vec Ideal S1376x8 .f32) (x3 : Vec Ideal S64x1 .f32)
    (hx0 : ∀ j, 0 ≤ (x0 j).toInt ∧ (x0 j).toInt < 256) (x : S64x1024.Idx) :
    k0_pay7 (F := Ideal) (k0_pay2 x1) (k0_pay3 x3) (iota .tc S64x128x256 32 [2] iota_S64x128x256_d2_w32)
        (View.ld x0 (Rect.unit (s := S64x1376) ![0, g0] ![64, 128] inbA))
        (View.ld x2 (Rect.unit (s := S1376x8) ![g0, 0] ![128, 8] inbR)) x
      = Codebook.blockWeight x0 x1 x2 x3 ((Rect.unit (s := S64x11008) ![0, o] ![64, 1024] inbO).emb x) := by
  subst ho
  obtain ⟨t, c, rfl⟩ : ∃ (t : Fin 64) (c : Fin 1024), x = ix2 t c := ⟨x 0, x 1, eq_ix2 x⟩
  have hc := c.isLt
  have hg0 : g0 + 128 ≤ 1376 := by have := inbA 1; exact this
  refine (Codebook.chunk_apply (G := 128) (M := 8192) (C := 1024) rfl rfl dot_S8192x256_S256x8_S8192x8_1_0_0_1_n_n rfl rfl
    lhs128_0 lhs128_1 rhs128_0 rhs128_1 Facts₀.shapeCasts_S64x128_S64x128 Facts₀.shapeCasts_S64x128_S64x128x1
    Facts₀.broadcasts_S64x128x1_S64x128x256 Facts₀.shapeCasts_S64x128x256_S8192x256 Facts₀.shapeCasts_S8192x8_S64x128x8
    Facts₀.shapeCasts_S128x8_S128x8 Facts₀.shapeCasts_S128x8_S1x128x8 Facts₀.broadcasts_S1x128x8_S64x128x8
    Facts₀.broadcasts_S64x1x1_S64x128x8 Facts₀.shapeCasts_S64x128x8_S64x1024 Facts₀.natLt_1_32 Facts₀.bitsLt_bf16_f32
    (k0_pay2 x1) (k0_pay3 x3) _
    (iota_single_apply .tc S64x128x256 32 2 iota_S64x128x256_d2_w32) _ _ t (⟨c.val / 8, by omega⟩ : Fin 128)
    (⟨c.val % 8, Nat.mod_lt _ (by decide)⟩ : Fin 8) c (by show c.val = c.val / 8 * 8 + c.val % 8; omega)
    (hx0 _).1 (hx0 _).2).trans ?_
  rw [codebook_apply, colnorm_apply,
    Codebook.blockWeight_apply x0 x1 x2 x3 _ t (⟨g0 + c.val / 8, by omega⟩ : Fin 1376) (⟨c.val % 8, Nat.mod_lt _ (by decide)⟩ : Fin 8)
      (by show 0 + 1 * t.val = t.val; omega) (by show (8 * g0 + 1 * c.val) / 8 = g0 + c.val / 8; omega)
      (by show (8 * g0 + 1 * c.val) % 8 = c.val % 8; omega)]
  have hA : View.ld x0 (Rect.unit (s := S64x1376) ![0, g0] ![64, 128] inbA) (ix2 t (⟨c.val / 8, by omega⟩ : Fin 128))
      = x0 (ix2 t (⟨g0 + c.val / 8, by omega⟩ : Fin 1376)) :=
    congrArg x0 (Shape.idx_ext₂ (by show 0 + 1 * t.val = t.val; omega) (by show g0 + 1 * (c.val / 8) = g0 + c.val / 8; omega))
  have hR : View.ld x2 (Rect.unit (s := S1376x8) ![g0, 0] ![128, 8] inbR)
      (ix2 (⟨c.val / 8, by omega⟩ : Fin 128) (⟨c.val % 8, Nat.mod_lt _ (by decide)⟩ : Fin 8))
      = x2 (ix2 (⟨g0 + c.val / 8, by omega⟩ : Fin 1376) (⟨c.val % 8, Nat.mod_lt _ (by decide)⟩ : Fin 8)) :=
    congrArg x2 (Shape.idx_ext₂ (by show g0 + 1 * (c.val / 8) = g0 + c.val / 8; omega) (by show 0 + 1 * (c.val % 8) = c.val % 8; omega))
  rw [hA, hR]

/-- The codeword numbers of the last chunk: the first 96 groups of the same numbering. -/
theorem tail_numbers (i : S64x96x256.Idx) :
    extractStridedSlice S64x96x256 ![0, 0, 0] (iota .tc S64x128x256 32 [2] iota_S64x128x256_d2_w32)
      slices_S64x128x256_o0_0_0_S64x96x256 i = BitVec.ofNat 32 (i 2).val := by
  unfold extractStridedSlice
  rw [iota_single_apply]
  show BitVec.ofNat 32 (0 + (i 2).val) = _
  rw [Nat.zero_add]

/-- The last chunk: 96 groups at group offset 1280 (column offset 10240). -/
theorem piece96
    (inbO : ∀ a, (![0, 10240] : Fin 2 → Nat) a + (![64, 768] : Fin 2 → Nat) a ≤ S64x11008.size a)
    (inbA : ∀ a, (![0, 1280] : Fin 2 → Nat) a + S64x96.size a ≤ S64x1376.size a)
    (inbR : ∀ a, (![1280, 0] : Fin 2 → Nat) a + (![96, 8] : Fin 2 → Nat) a ≤ S1376x8.size a)
    (x0 : Vec Ideal S64x1376 .i32) (x1 : Vec Ideal S256x8 .f32) (x2 : Vec Ideal S1376x8 .f32) (x3 : Vec Ideal S64x1 .f32)
    (hx0 : ∀ j, 0 ≤ (x0 j).toInt ∧ (x0 j).toInt < 256) (x : S64x768.Idx) :
    k0_pay1 (F := Ideal) (k0_pay2 x1) (k0_pay3 x3)
        (k0_pay16 (F := Ideal) (iota .tc S64x128x256 32 [2] iota_S64x128x256_d2_w32)
          (View.ld x0 (Rect.unit (s := S64x1376) ![0, 1280] S64x96.size inbA)))
        (View.ld x2 (Rect.unit (s := S1376x8) ![1280, 0] ![96, 8] inbR)) x
      = Codebook.blockWeight x0 x1 x2 x3 ((Rect.unit (s := S64x11008) ![0, 10240] ![64, 768] inbO).emb x) := by
  obtain ⟨t, c, rfl⟩ : ∃ (t : Fin 64) (c : Fin 768), x = ix2 t c := ⟨x 0, x 1, eq_ix2 x⟩
  have hc := c.isLt
  refine (Codebook.chunk_apply (G := 96) (M := 6144) (C := 768) rfl rfl dot_S6144x256_S256x8_S6144x8_1_0_0_1_n_n rfl rfl
    lhs96_0 lhs96_1 rhs96_0 rhs96_1 Facts₀.shapeCasts_S64x96_S64x96 Facts₀.shapeCasts_S64x96_S64x96x1
    Facts₀.broadcasts_S64x96x1_S64x96x256 Facts₀.shapeCasts_S64x96x256_S6144x256 Facts₀.shapeCasts_S6144x8_S64x96x8
    Facts₀.shapeCasts_S96x8_S96x8 Facts₀.shapeCasts_S96x8_S1x96x8 Facts₀.broadcasts_S1x96x8_S64x96x8
    Facts₀.broadcasts_S64x1x1_S64x96x8 Facts₀.shapeCasts_S64x96x8_S64x768 Facts₀.natLt_1_32 Facts₀.bitsLt_bf16_f32
    (k0_pay2 x1) (k0_pay3 x3) _
    tail_numbers _ _ t (⟨c.val / 8, by omega⟩ : Fin 96)
    (⟨c.val % 8, Nat.mod_lt _ (by decide)⟩ : Fin 8) c (by show c.val = c.val / 8 * 8 + c.val % 8; omega)
    (hx0 _).1 (hx0 _).2).trans ?_
  rw [codebook_apply, colnorm_apply,
    Codebook.blockWeight_apply x0 x1 x2 x3 _ t (⟨1280 + c.val / 8, by omega⟩ : Fin 1376) (⟨c.val % 8, Nat.mod_lt _ (by decide)⟩ : Fin 8)
      (by show 0 + 1 * t.val = t.val; omega) (by show (10240 + 1 * c.val) / 8 = 1280 + c.val / 8; omega)
      (by show (10240 + 1 * c.val) % 8 = c.val % 8; omega)]
  have hA : View.ld x0 (Rect.unit (s := S64x1376) ![0, 1280] S64x96.size inbA) (ix2 t (⟨c.val / 8, by omega⟩ : Fin 96))
      = x0 (ix2 t (⟨1280 + c.val / 8, by omega⟩ : Fin 1376)) :=
    congrArg x0 (Shape.idx_ext₂ (by show 0 + 1 * t.val = t.val; omega) (by show 1280 + 1 * (c.val / 8) = 1280 + c.val / 8; omega))
  have hR : View.ld x2 (Rect.unit (s := S1376x8) ![1280, 0] ![96, 8] inbR)
      (ix2 (⟨c.val / 8, by omega⟩ : Fin 96) (⟨c.val % 8, Nat.mod_lt _ (by decide)⟩ : Fin 8))
      = x2 (ix2 (⟨1280 + c.val / 8, by omega⟩ : Fin 1376) (⟨c.val % 8, Nat.mod_lt _ (by decide)⟩ : Fin 8)) :=
    congrArg x2 (Shape.idx_ext₂ (by show 1280 + 1 * (c.val / 8) = 1280 + c.val / 8; omega) (by show 0 + 1 * (c.val % 8) = c.val % 8; omega))
  rw [hA, hR]

/-! ## The block after the body -/

theorem zero_offsets : (![0, 0] : Fin 2 → Nat) = fun _ => 0 := funext fun a => by fin_cases a <;> rfl

/-- THE OUTPUT BLOCK AFTER THE BODY is `blockWeight` of the block's inputs, on whatever staging buffers the body runs:
    each of the 11 stores wrote `blockWeight` on its own rectangle, and the rectangles cover the block. -/
theorem block_eq (c : Dev nD) (i : grid0.Coords) (arg1 : Memref sig .tc .vmem S64x1376 .i32) (harg1 : arg1.IsWhole)
    (arg2 : Memref sig .tc .vmem S256x8 .f32) (harg2 : arg2.IsWhole) (arg3 : Memref sig .tc .vmem S1376x8 .f32)
    (harg3 : arg3.IsWhole) (arg4 : Memref sig .tc .vmem S64x1 .f32) (harg4 : arg4.IsWhole)
    (arg5 : Memref sig .tc .vmem S64x11008 .f32) (harg5 : arg5.IsWhole)
    (x0 : Vec Ideal S64x1376 .i32) (x1 : Vec Ideal S256x8 .f32) (x2 : Vec Ideal S1376x8 .f32) (x3 : Vec Ideal S64x1 .f32)
    (hx0 : ∀ j, 0 ≤ (x0 j).toInt ∧ (x0 j).toInt < 256) :
    out0_A_4 (F := Ideal) c i arg1 harg1 arg2 harg2 arg3 harg3 arg4 harg4 arg5 harg5 x0 x1 x2 x3
      = Codebook.blockWeight x0 x1 x2 x3 := by
  unfold out0_A_4
  rw [View.read_writes_junk_eq_canon]
  funext y
  refine View.canon_apply_of_pieces (Codebook.blockWeight x0 x1 x2 x3) _ ?_ y
    (cover0_A_4 c i arg1 harg1 arg2 harg2 arg3 harg3 arg4 harg4 arg5 harg5 x0 x1 x2 x3 y)
  unfold kernelRun0_A
  dsimp only
  sl_unfold_words
  simp only [View.readAt_eq_ld, harg1.read_unread, harg2.read_unread, harg3.read_unread, harg4.read_unread,
    View.ld_unit_zero (S := S256x8) zero_offsets, View.ld_unit_zero (S := S64x1) zero_offsets]
  intro p hp x
  simp only [List.mem_cons, List.mem_nil_iff, or_false] at hp
  rcases hp with rfl | rfl | rfl | rfl | rfl | rfl | rfl | rfl | rfl | rfl | rfl
  · exact piece96 Facts₀.inb_S64x11008_S64x768_0_10240 Facts₀.inb_S64x1376_S64x96_0_1280 Facts₀.inb_S1376x8_S96x8_1280_0 x0 x1 x2 x3 hx0 x
  · exact piece128 9216 1152 rfl Facts₀.inb_S64x11008_S64x1024_0_9216 Facts₀.inb_S64x1376_S64x128_0_1152 Facts₀.inb_S1376x8_S128x8_1152_0 x0 x1 x2 x3 hx0 x
  · exact piece128 8192 1024 rfl Facts₀.inb_S64x11008_S64x1024_0_8192 Facts₀.inb_S64x1376_S64x128_0_1024 Facts₀.inb_S1376x8_S128x8_1024_0 x0 x1 x2 x3 hx0 x
  · exact piece128 7168 896 rfl Facts₀.inb_S64x11008_S64x1024_0_7168 Facts₀.inb_S64x1376_S64x128_0_896 Facts₀.inb_S1376x8_S128x8_896_0 x0 x1 x2 x3 hx0 x
  · exact piece128 6144 768 rfl Facts₀.inb_S64x11008_S64x1024_0_6144 Facts₀.inb_S64x1376_S64x128_0_768 Facts₀.inb_S1376x8_S128x8_768_0 x0 x1 x2 x3 hx0 x
  · exact piece128 5120 640 rfl Facts₀.inb_S64x11008_S64x1024_0_5120 Facts₀.inb_S64x1376_S64x128_0_640 Facts₀.inb_S1376x8_S128x8_640_0 x0 x1 x2 x3 hx0 x
  · exact piece128 4096 512 rfl Facts₀.inb_S64x11008_S64x1024_0_4096 Facts₀.inb_S64x1376_S64x128_0_512 Facts₀.inb_S1376x8_S128x8_512_0 x0 x1 x2 x3 hx0 x
  · exact piece128 3072 384 rfl Facts₀.inb_S64x11008_S64x1024_0_3072 Facts₀.inb_S64x1376_S64x128_0_384 Facts₀.inb_S1376x8_S128x8_384_0 x0 x1 x2 x3 hx0 x
  · exact piece128 2048 256 rfl Facts₀.inb_S64x11008_S64x1024_0_2048 Facts₀.inb_S64x1376_S64x128_0_256 Facts₀.inb_S1376x8_S128x8_256_0 x0 x1 x2 x3 hx0 x
  · exact piece128 1024 128 rfl Facts₀.inb_S64x11008_S64x1024_0_1024 Facts₀.inb_S64x1376_S64x128_0_128 Facts₀.inb_S1376x8_S128x8_128_0 x0 x1 x2 x3 hx0 x
  · exact piece128 0 0 rfl Facts₀.inb_S64x11008_S64x1024_0_0 Facts₀.inb_S64x1376_S64x128_0_0 Facts₀.inb_S1376x8_S128x8_0_0 x0 x1 x2 x3 hx0 x

end Cert.KernelIdeal.BlockValue

end
-- ==== Proof.ArrayValue.lean ====
/-
  The kernel's result array is the weight matrix.

  Grid point `t` of 64 works on rows `64 t … 64 t + 63`. Its input blocks are read off the argument arrays: the
  assignment words laid out `[4096, 1376]` (block `t`: 64 rows of 1376 words), the whole codebook, the row norms laid
  out `[1376, 8]` (whole), and the column norms laid out `[4096, 1]` (block `t`: 64 of them). The block function
  `Codebook.blockWeight` of these is block `t` of `Codebook.weight` of the argument arrays: row `r` of the block is row
  `64 t + r`, group `g` of that row is word `1376 (64 t + r) + g`, and row norm `(g, e)` is entry `8 g + e`. The 64 row
  blocks cover the matrix, so the array ends at `weight` everywhere.
-/
import proofs.«402330_j30803505447135_3_alg».proof.Proof.Gen.KernelIdeal.Value
import proofs.«402330_j30803505447135_3_alg».proof.Proof.BlockValue
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

variable (m : (ℓ : Loc nD τ sig) → Buf (Elt Ideal) ℓ) (ρ : Dev nD → PrngReg)

/-! ## The argument arrays -/

abbrev codebook (c : Dev nD) : Vec Ideal S256x8 .f32 := m ((c : Thread nD τ).loc main_arg0)
abbrev words (c : Dev nD) : Vec Ideal S5636096 .i32 := m ((c : Thread nD τ).loc main_arg1)
abbrev rowNorms (c : Dev nD) : Vec Ideal S11008 .f32 := m ((c : Thread nD τ).loc main_arg2)
abbrev colNorms (c : Dev nD) : Vec Ideal S4096 .f32 := m ((c : Thread nD τ).loc main_arg3)

/-! ## The arrays the region finds: three of the arguments laid out anew -/

theorem words2d (c : Dev nD) : (V m c main_v0 : S4096x1376.Idx → BitVec 32)
    = shapeCast S4096x1376 (words m c) Facts₀.shapeCasts_S5636096_S4096x1376 := by
  dsimp only [Gen.V, Gen.hostOps0]; after_results; rfl

theorem rowNorms2d (c : Dev nD) : (V m c main_v1 : S1376x8.Idx → EReal)
    = shapeCast S1376x8 (rowNorms m c) Facts₀.shapeCasts_S11008_S1376x8 := by
  dsimp only [Gen.V, Gen.hostOps0]; after_results; rfl

theorem colNorms2d (c : Dev nD) : (V m c main_v2 : S4096x1.Idx → EReal)
    = shapeCast S4096x1 (colNorms m c) Facts₀.shapeCasts_S4096_S4096x1 := by
  dsimp only [Gen.V, Gen.hostOps0]; after_results; rfl

/-! ## Where each window's block lies -/

/-- Point `t`'s block index per window: the words', the column norms' and the output's move with `t` along the rows;
    the codebook and the row norms are whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem row_lt (t : Fin cfg0.N) (r : Fin 64) : t.val * 64 + r.val < 4096 := by
  have ht : t.val < 64 := t.isLt
  have hr := r.isLt
  omega

theorem word_lt (t : Fin cfg0.N) (r : Fin 64) (g : Fin 1376) : (t.val * 64 + r.val) * 1376 + g.val < 5636096 := by
  have h := row_lt t r
  have hg := g.isLt
  omega

/-- Word `(r, g)` of point `t`'s block is assignment word `1376 (64 t + r) + g`. -/
theorem wordsBlk_apply (c : Dev nD) (t : Fin cfg0.N) (r : Fin 64) (g : Fin 1376) :
    (iblk m c 0 t : S64x1376.Idx → BitVec 32) (ix2 r g)
      = words m c (ix1 (⟨(t.val * 64 + r.val) * 1376 + g.val, word_lt t r g⟩ : Fin 5636096)) := by
  obtain ⟨e0, e1, -⟩ := idx_facts t
  show (V m c main_v0 : S4096x1376.Idx → BitVec 32) (((cfg0.win 0).blk t).view.emb (ix2 r g)) = _
  rw [words2d, shapeCast_apply _ _ _ (ix1 (⟨(t.val * 64 + r.val) * 1376 + g.val, word_lt t r g⟩ : Fin 5636096)) (by
    rw [Shape.rowMajor_val_one, Shape.rowMajor_val_two]
    show (t.val * 64 + r.val) * 1376 + g.val
      = (win0_0.index t (0 : Fin 2) * 64 + 1 * r.val) * 1376 + (win0_0.index t (1 : Fin 2) * 1376 + 1 * g.val)
    rw [e0, e1]; omega)]

/-- The codebook's block is the codebook. -/
theorem codebookBlk_apply (c : Dev nD) (t : Fin cfg0.N) (k : Fin 256) (e : Fin 8) :
    (iblk m c 1 t : S256x8.Idx → EReal) (ix2 k e) = codebook m c (ix2 k e) := by
  obtain ⟨-, -, e0, e1, -⟩ := idx_facts t
  show (V m c main_arg0 : S256x8.Idx → EReal) (((cfg0.win 1).blk t).view.emb (ix2 k e)) = _
  rw [V_main_arg0]
  refine congrArg (codebook m c) (Shape.idx_ext₂ ?_ ?_)
  · show win0_1.index t (0 : Fin 2) * 256 + 1 * k.val = k.val
    rw [e0]; omega
  · show win0_1.index t (1 : Fin 2) * 8 + 1 * e.val = e.val
    rw [e1]; omega

/-- Row norm `(g, e)` is entry `8 g + e` of the row norms. -/
theorem rowNormsBlk_apply (c : Dev nD) (t : Fin cfg0.N) (g : Fin 1376) (e : Fin 8) (j : Fin 11008)
    (hj : j.val = g.val * 8 + e.val) :
    (iblk m c 2 t : S1376x8.Idx → EReal) (ix2 g e) = rowNorms m c (ix1 j) := by
  obtain ⟨-, -, -, -, e0, e1, -⟩ := idx_facts t
  show (V m c main_v1 : S1376x8.Idx → EReal) (((cfg0.win 2).blk t).view.emb (ix2 g e)) = _
  rw [rowNorms2d, shapeCast_apply _ _ _ (ix1 j) (by
    rw [Shape.rowMajor_val_one, Shape.rowMajor_val_two]
    show j.val = (win0_2.index t (0 : Fin 2) * 1376 + 1 * g.val) * 8 + (win0_2.index t (1 : Fin 2) * 8 + 1 * e.val)
    rw [e0, e1, hj]; omega)]

/-- Column norm `r` of point `t`'s block is column norm `64 t + r`. -/
theorem colNormsBlk_apply (c : Dev nD) (t : Fin cfg0.N) (r : Fin 64) :
    (iblk m c 3 t : S64x1.Idx → EReal) (ix2 r (0 : Fin 1))
      = colNorms m c (ix1 (⟨t.val * 64 + r.val, row_lt t r⟩ : Fin 4096)) := by
  obtain ⟨-, -, -, -, -, -, e0, e1, -⟩ := idx_facts t
  show (V m c main_v2 : S4096x1.Idx → EReal) (((cfg0.win 3).blk t).view.emb (ix2 r (0 : Fin 1))) = _
  rw [colNorms2d, shapeCast_apply _ _ _ (ix1 (⟨t.val * 64 + r.val, row_lt t r⟩ : Fin 4096)) (by
    rw [Shape.rowMajor_val_one, Shape.rowMajor_val_two]
    show t.val * 64 + r.val = (win0_3.index t (0 : Fin 2) * 64 + 1 * r.val) * 1 + (win0_3.index t (1 : Fin 2) * 1 + 1 * 0)
    rw [e0, e1]; omega)]

/-- Every word of a block is one of the assignment words: in range when they all are. -/
theorem wordsBlk_range (hw : ∀ c i, 0 ≤ (words m c i).toInt ∧ (words m c i).toInt < 256) (c : Dev nD) (t : Fin cfg0.N)
    (j : S64x1376.Idx) :
    0 ≤ ((iblk m c 0 t : S64x1376.Idx → BitVec 32) j).toInt ∧ ((iblk m c 0 t : S64x1376.Idx → BitVec 32) j).toInt < 256 := by
  obtain ⟨r, g, rfl⟩ : ∃ (r : Fin 64) (g : Fin 1376), j = ix2 r g := ⟨j 0, j 1, eq_ix2 j⟩
  have h := wordsBlk_apply m c t r g
  rw [h]
  exact hw c _

/-! ## What point `t` writes back, and the array after the run -/

/-- WHAT POINT `t` WRITES BACK is block `t` of the weight matrix of the argument arrays. -/
theorem flushed_eq (hw : ∀ c i, 0 ≤ (words m c i).toInt ∧ (words m c i).toInt < 256) (c : Dev nD) (t : Fin cfg0.N) :
    (dats m 0 c).flushed 4 t = ((cfg0.win 4).blk t).view.read (Elt Ideal)
      (Codebook.weight (codebook m c) (words m c) (rowNorms m c) (colNorms m c)) := by
  rw [Value.flushed4_A,
    BlockValue.block_eq c (grid0.coords t) (ms0_0 t) (hs0_0 t) (ms0_1 t) (hs0_1 t) (ms0_2 t) (hs0_2 t) (ms0_3 t) (hs0_3 t)
      (ms0_4 t) (hs0_4 t) (iblk m c 0 t) (iblk m c 1 t) (iblk m c 2 t) (iblk m c 3 t) (wordsBlk_range m hw c t)]
  obtain ⟨-, -, -, -, -, -, -, -, e0, e1⟩ := idx_facts t
  funext j
  obtain ⟨r, q, rfl⟩ : ∃ (r : Fin 64) (q : Fin 11008), j = ix2 r q := ⟨j 0, j 1, eq_ix2 j⟩
  have hq := q.isLt
  show Codebook.blockWeight (iblk m c 0 t) (iblk m c 1 t) (iblk m c 2 t) (iblk m c 3 t) (ix2 r q)
    = Codebook.weight (codebook m c) (words m c) (rowNorms m c) (colNorms m c) (((cfg0.win 4).blk t).view.emb (ix2 r q))
  rw [Codebook.blockWeight_apply _ _ _ _ (ix2 r q) r (⟨q.val / 8, by omega⟩ : Fin 1376) (⟨q.val % 8, Nat.mod_lt _ (by decide)⟩ : Fin 8)
      rfl rfl rfl,
    Codebook.weight_apply _ _ _ _ _ (⟨t.val * 64 + r.val, row_lt t r⟩ : Fin 4096) q
      (⟨(t.val * 64 + r.val) * 1376 + q.val / 8, word_lt t r ⟨q.val / 8, by omega⟩⟩ : Fin 5636096)
      (⟨q.val % 8, Nat.mod_lt _ (by decide)⟩ : Fin 8)
      (by show win0_4.index t (0 : Fin 2) * 64 + 1 * r.val = t.val * 64 + r.val; rw [e0]; omega)
      (by show win0_4.index t (1 : Fin 2) * 11008 + 1 * q.val = q.val; rw [e1]; omega)
      (by show (win0_4.index t (0 : Fin 2) * 64 + 1 * r.val) * 1376 + (win0_4.index t (1 : Fin 2) * 11008 + 1 * q.val) / 8
            = (t.val * 64 + r.val) * 1376 + q.val / 8
          rw [e0, e1]; omega)
      (by show (win0_4.index t (1 : Fin 2) * 11008 + 1 * q.val) % 8 = q.val % 8; rw [e1]; omega)]
  rw [wordsBlk_apply, codebookBlk_apply, rowNormsBlk_apply m c t _ _ q (by show q.val = q.val / 8 * 8 + q.val % 8; omega),
    colNormsBlk_apply]

/-- An index of the matrix is in point `t`'s block iff each coordinate is in the block's range on its axis. -/
theorem mem_blk (t : Fin cfg0.N) (i : S4096x11008.Idx) :
    i ∈ ((cfg0.win 4).blk t).view.set ↔ ∀ a : Fin 2, win0_4.index t a * S64x11008.size a ≤ (i a).val
      ∧ (i a).val < win0_4.index t a * S64x11008.size a + S64x11008.size a := by
  show i ∈ ((View.whole main_v3).slice (win0_4.rect t)).set ↔ _
  rw [View.set_slice_whole, Rect.mem_set_unit]
  exact Iff.rfl

/-- Row `i` lies in the block of point `i / 64`. -/
theorem cover (i : S4096x11008.Idx) : ∃ t : Fin cfg0.N, (cfg0.win 4).flush t = true ∧ i ∈ ((cfg0.win 4).blk t).view.set := by
  have hi0 : (i 0).val < 4096 := (i 0).isLt
  have hi1 : (i 1).val < 11008 := (i 1).isLt
  refine ⟨⟨(i 0).val / 64, by show (i 0).val / 64 < 64; omega⟩, flush0_4 _, ?_⟩
  rw [mem_blk]
  obtain ⟨-, -, -, -, -, -, -, -, e0, e1⟩ := idx_facts ⟨(i 0).val / 64, by show (i 0).val / 64 < 64; omega⟩
  intro a
  match a with
  | ⟨0, _⟩ =>
    show win0_4.index _ (0 : Fin 2) * 64 ≤ (i 0).val ∧ (i 0).val < win0_4.index _ (0 : Fin 2) * 64 + 64
    rw [e0]; show (i 0).val / 64 * 64 ≤ (i 0).val ∧ (i 0).val < (i 0).val / 64 * 64 + 64; omega
  | ⟨1, _⟩ =>
    show win0_4.index _ (1 : Fin 2) * 11008 ≤ (i 1).val ∧ (i 1).val < win0_4.index _ (1 : Fin 2) * 11008 + 11008
    rw [e1]; omega

/-- THE RESULT ARRAY after the run is the weight matrix of the argument arrays. -/
theorem final (hw : ∀ c i, 0 ≤ (words m c i).toInt ∧ (words m c i).toInt < 256) (c : Dev nD) :
    (dats m 0 c).arrAt 4 cfg0.N = Codebook.weight (codebook m c) (words m c) (rowNorms m c) (colNorms m c) :=
  (dats m 0 c).arrAt_eq_of_cover 4 _ (fun t _ => flushed_eq m hw c t) cover

/-- The run: every execution ends with the result array at the weight matrix and the arguments unchanged. -/
theorem run (hw : ∀ c i, 0 ≤ (words m c i).toInt ∧ (words m c i).toInt < 256) :
    θ_run defs (onTc (τ := τ) (main (F := Ideal))) ⟨m, fun _ => 0, ρ⟩ fun r => ∀ c : Dev nD,
      r.2.mem ((c : Thread nD τ).loc main_v3) = Codebook.weight (codebook m c) (words m c) (rowNorms m c) (colNorms m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m hw c), (h c).2⟩) (Value.run_blocks m ρ)

end Cert.KernelIdeal.ArrayValue

end
-- ==== Proof.RefValue.lean ====
/-
  The reference computes the weight matrix.

  The reference turns each assignment word into an index (a negative word has 256 added; a non-negative one is kept),
  gathers that row of the codebook — one row of 8 entries per word, the index clamped into the codebook —, lays the
  `[5636096, 8]` result out as `[4096, 11008]`, and multiplies by the row norms along the rows and by the column norms
  along the columns. Entry `(i, j)` of the laid-out gather is entry `((11008 i + j) / 8, (11008 i + j) % 8)` of the
  gather, and `11008 = 8 · 1376`, so that is word `1376 i + j / 8` at position `j % 8`: the weight matrix's entry.
  Only `0 ≤ word` is used here (no word is wrapped); the clamp from above is part of `Codebook.row`.
-/
import proofs.«402330_j30803505447135_3_alg».proof.Proof.Gen.ReferenceIdeal.Read
import proofs.«402330_j30803505447135_3_alg».proof.Proof.Weight
import Idealize.ShloMosaic.Lib.Affine

noncomputable section

namespace Cert.ReferenceIdeal.RefValue

open Cert.ReferenceIdeal Cert.ReferenceIdeal.Read Idealize.ShloMosaic Idealize.ShloMosaic.ValueIdx

/-- A word that is not negative is its own index: the reference adds 256 only to negative words. -/
theorem index_word (x1 : IVec S5636096 32) (i : S5636096.Idx) (h0 : 0 ≤ (x1 i).toInt) :
    val_main_v4 (F := Ideal) x1 i = x1 i := by
  rw [val_main_v4_apply, val_main_v1_apply, val_main_v0_apply, val_main_c_apply]
  have hz : IntOp.cmpi .slt (x1 i) 0#32 = 0#1 := eq_zero_of_ne_one (fun hc => by
    have h := IntOp.cmpi_slt.mp hc
    rw [show (0#32 : BitVec 32).toInt = 0 from by decide] at h
    omega)
  rw [hz, select_zero]

/-- The gather's entry `(e, k)`: the codebook at the row word `e` names, position `k`. -/
theorem gather_entry (x0 : FVec Ideal S256x8 .f32) (x1 : IVec S5636096 32) (h0 : ∀ i, 0 ≤ (x1 i).toInt)
    (e : Fin 5636096) (k : Fin 8) :
    val_main_v6 (F := Ideal) x0 x1 (ix2 e k) = x0 (ix2 (Codebook.row (x1 (ix1 e))) k) := by
  unfold val_main_v6
  show Host.gather (LibGatherScatter.rowsDims 256 5636096 8 Facts₀.gather_S256x8_S5636096x1_S5636096x8_1_0_n_n_0_1_18_wf)
    x0 (val_main_v5 (F := Ideal) x1) (ix2 e k) = _
  rw [LibGatherScatter.gather_rows_apply (by decide : 0 < 256), val_main_v5_apply]
  have hi : idx_main_v5 (ix2 e (0 : Fin 1)) = ix1 e := funext fun a => Fin.ext (by
    match a with
    | ⟨0, _⟩ => rfl)
  rw [hi, index_word x1 (ix1 e) (h0 _)]
  rfl

/-- THE REFERENCE'S RESULT IS THE WEIGHT MATRIX, when no assignment word is negative. -/
theorem result_eq (x0 : FVec Ideal S256x8 .f32) (x1 : IVec S5636096 32) (x2 : FVec Ideal S11008 .f32)
    (x3 : FVec Ideal S4096 .f32) (h0 : ∀ i, 0 ≤ (x1 i).toInt) :
    val_main_v13 (F := Ideal) x0 x1 x2 x3 = Codebook.weight x0 x1 x2 x3 := by
  funext y
  rw [val_main_v13_apply, val_main_v10_apply, val_main_v7_apply, val_main_v9_apply, val_main_v8_apply,
    val_main_v12_apply, val_main_v11_apply]
  have hy0 := idx2_lt0 y
  have hy1 := idx2_lt1 y
  have h7 : idx_main_v7 y = ix2 (⟨(y 0).val * 1376 + (y 1).val / 8, Codebook.word_lt hy0 hy1⟩ : Fin 5636096)
      (⟨(y 1).val % 8, Codebook.pos_lt _⟩ : Fin 8) := funext fun a => Fin.ext (by
    match a with
    | ⟨0, _⟩ => show ((y 0).val * 11008 + (y 1).val) / 8 = (y 0).val * 1376 + (y 1).val / 8; omega
    | ⟨1, _⟩ => show ((y 0).val * 11008 + (y 1).val) % 8 = (y 1).val % 8; omega)
  have h9 : idx_main_v8 (idx_main_v9 y) = ix1 (⟨(y 1).val, hy1⟩ : Fin 11008) := funext fun a => Fin.ext (by
    match a with
    | ⟨0, _⟩ => rfl)
  have h12 : idx_main_v11 (idx_main_v12 y) = ix1 (⟨(y 0).val, hy0⟩ : Fin 4096) := funext fun a => Fin.ext (by
    match a with
    | ⟨0, _⟩ => rfl)
  rw [h7, h9, h12, gather_entry x0 x1 h0]
  rfl

end Cert.ReferenceIdeal.RefValue

end
-- ==== Proof.WordsInRange.lean ====
/-
  What the precondition says of the assignment words.

  The precondition is a conjunction; its last conjunct is "every assignment word `w` has `0 ≤ w` and `w < 256`", the
  words read as signed integers, stated as one `and`-reduction over all 5636096 words of the pointwise conjunction of
  the two comparisons. When the whole predicate is 1, that reduction is 1, so each word's two comparisons are 1, and a
  signed comparison that is 1 orders the words' signed values.
-/
import proofs.«402330_j30803505447135_3_alg».proof.Pre_finite_inputs
import Idealize.ShloMosaic.Lib.ReduceAll
import Idealize.ShloMosaic.Lib.ValueIdx

noncomputable section

namespace Cert.Pre_finite_inputs.Range

open Cert.Pre_finite_inputs Idealize.ShloMosaic

variable [Facts]

/-- EVERY ASSIGNMENT WORD IS A CODEBOOK ROW NUMBER: under the precondition, `0 ≤ w < 256` for each word `w`, at any
    float instance (the float inputs play no part in this conjunct). -/
theorem words_in_range {F : FTy → Type} [FloatOps F] (a0 : FVec F S256x8 .f32) (a1 : IVec S5636096 32)
    (a2 : FVec F S11008 .f32) (a3 : FVec F S4096 .f32) (h : fn (F := F) a0 a1 a2 a3 = fun _ => 1#1)
    (i : S5636096.Idx) : 0 ≤ (a1 i).toInt ∧ (a1 i).toInt < 256 := by
  haveI : Subsingleton S_.Idx := ⟨fun a b => funext fun d => d.elim0⟩
  have h0 := congrFun h ValueIdx.ix0
  dsimp only [fn, fn_part1] at h0
  have h0' : IntOp.andi _ _ = 1#1 := h0
  have h1 := (IntOp.andi_eq_one.mp h0').2
  have h2 := Host.reduce_andi_all _ _ _ _ _ h1 i
  have h2' : IntOp.andi _ _ = 1#1 := h2
  obtain ⟨hge, hlt⟩ := IntOp.andi_eq_one.mp h2'
  have hge' : (0#32 : BitVec 32).toInt ≤ (a1 i).toInt := IntOp.cmpi_sge.mp hge
  have hlt' : (a1 i).toInt < (256#32 : BitVec 32).toInt := IntOp.cmpi_slt.mp hlt
  rw [show (0#32 : BitVec 32).toInt = 0 from by decide] at hge'
  rw [show (256#32 : BitVec 32).toInt = 256 from by decide] at hlt'
  exact ⟨hge', hlt'⟩

end Cert.Pre_finite_inputs.Range

end
-- ==== Proof.lean ====
/-
  Dequantising a vector-quantised weight matrix: the kernel and the reference compute the same matrix.

  The weight matrix is `[4096, 11008]`, its columns in 1376 groups of 8. Each (row, group) has an assignment word
  naming one of the 256 rows of a codebook `[256, 8]`; entry `(i, j)` is

      codebook[assignments[1376 i + j / 8], j % 8] · rowwise_norms[j] · columnwise_norms[i]

  (`Codebook.weight`). The reference gathers the codebook rows and multiplies by the two norms. The kernel works on
  blocks of 64 rows and, inside a block, on chunks of 128 groups (a last one of 96): it compares the chunk's words
  against the codeword numbers 0 … 255, multiplies the resulting 0/1 matrix with the codebook — the sum over `k` of
  `[a = k] · codebook[k, e]`, which is `codebook[a, e]` for a word `a` in `[0, 256)` —, and scales by the norms in the
  same order as the reference. So on the extended reals both results are `weight` of the arguments, entry by entry;
  no finiteness is used (a zero factor annihilates any extended real, and the other products are the same products).

  The precondition's last conjunct says every assignment word is in `[0, 256)` (`words_in_range`); it is what makes
  the one-hot sum a codebook row, and what keeps the reference's index inside the codebook.

  The pieces: `OneHotGather` (the one-hot sum; one chunk at an index), `Weight` (the matrix and one block of it),
  `BlockValue` (what one grid point leaves in its output block), `ArrayValue` (the kernel's result array),
  `RefValue` (the reference's result), `WordsInRange` (the precondition read back), `LibGatherScatter` (a row
  gather read at an index).
-/
import proofs.«402330_j30803505447135_3_alg».proof.Defs
import proofs.«402330_j30803505447135_3_alg».proof.Proof.Gen.Kernel
import proofs.«402330_j30803505447135_3_alg».proof.Proof.Gen.Kernel.Skeleton
import proofs.«402330_j30803505447135_3_alg».proof.Proof.Gen.Kernel.Launch
import proofs.«402330_j30803505447135_3_alg».proof.Proof.Gen.Kernel.Points
import proofs.«402330_j30803505447135_3_alg».proof.Proof.Gen.Kernel.Frame
import proofs.«402330_j30803505447135_3_alg».proof.Proof.Gen.KernelIdeal
import proofs.«402330_j30803505447135_3_alg».proof.Proof.Gen.KernelIdeal.Skeleton
import proofs.«402330_j30803505447135_3_alg».proof.Proof.Gen.KernelIdeal.Launch
import proofs.«402330_j30803505447135_3_alg».proof.Proof.Gen.KernelIdeal.Points
import proofs.«402330_j30803505447135_3_alg».proof.Proof.Gen.KernelIdeal.Frame
import proofs.«402330_j30803505447135_3_alg».proof.Proof.Gen.ReferenceIdeal
import proofs.«402330_j30803505447135_3_alg».proof.Proof.Gen.Pre_finite_inputs
import proofs.«402330_j30803505447135_3_alg».proof.Proof.Gen.KernelIdeal.Value
import proofs.«402330_j30803505447135_3_alg».proof.Proof.Gen.ReferenceIdeal.Run
import proofs.«402330_j30803505447135_3_alg».proof.Proof.Gen.ReferenceIdeal.Read
import proofs.«402330_j30803505447135_3_alg».proof.Proof.ArrayValue
import proofs.«402330_j30803505447135_3_alg».proof.Proof.RefValue
import proofs.«402330_j30803505447135_3_alg».proof.Proof.WordsInRange
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading on the extended reals. -/
theorem preserves : Cert.preserves_Kernel_KernelIdeal := trivial

/-- Both programs end with the weight matrix of the (agreeing) arguments: the kernel block by block
    (`ArrayValue.run`), the reference operation by operation (`RefValue.result_eq`), the assignment words in
    `[0, 256)` by the precondition. -/
theorem algebraic : Cert.algebraic_KernelIdeal_ReferenceIdeal := by
  intro m ρ m' ρ' hpre hagree
  have hw : ∀ c i, 0 ≤ (Cert.KernelIdeal.ArrayValue.words m c i).toInt
      ∧ (Cert.KernelIdeal.ArrayValue.words m c i).toInt < 256 := fun c i =>
    Cert.Pre_finite_inputs.Range.words_in_range _ _ _ _ (hpre c) i
  refine ⟨fun c => Codebook.weight (Cert.KernelIdeal.ArrayValue.codebook m c) (Cert.KernelIdeal.ArrayValue.words m c)
    (Cert.KernelIdeal.ArrayValue.rowNorms m c) (Cert.KernelIdeal.ArrayValue.colNorms m c),
    Cert.KernelIdeal.ArrayValue.run m ρ hw, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2.1, (hagree c).2.2.1, (hagree c).2.2.2]
  exact Cert.ReferenceIdeal.RefValue.result_eq _ _ _ _ (fun i => (hw c i).1)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
